-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S512x4096 : Shape := ⟨2, ![512, 4096]⟩
abbrev S4096x128 : Shape := ⟨2, ![4096, 128]⟩
abbrev S512x128 : Shape := ⟨2, ![512, 128]⟩
abbrev S512x64 : Shape := ⟨2, ![512, 64]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .bf16⟩
  | .hbm, ⟨3, _⟩ => ⟨S4096x64, .f32⟩
  | .local _ .vmem, ⟨0, _⟩ => ⟨S4096x64, .bf16⟩
  | .local _ .vmem, ⟨1, _⟩ => ⟨S512x4096, .f32⟩
  | .local _ .vmem, ⟨2, _⟩ => ⟨S512x4096, .f32⟩
  | .local _ .vmem, ⟨3, _⟩ => ⟨S4096x64, .f32⟩
  | .local _ .vmem, ⟨4, _⟩ => ⟨S4096x4096, .bf16⟩
  | .local _ .vmem, ⟨5, _⟩ => ⟨S4096x128, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : Index := Scalar.indexCast v5
  let c0_2 : Index := 0#32
  ![v6.toNat, 0]
def k0_off2 (i : grid0.Coords) : Fin 2 → Nat :=
  let arg0 : BitVec 32 := BitVec.ofNat 32 (i 0).val
  let c512_i32_7 : BitVec 32 := 512#32
  let v16 : BitVec 32 := Scalar.muli arg0 c512_i32_7
  let v17 : Index := Scalar.indexCast v16
  let c0_8 : Index := 0#32
  ![v17.toNat, 0]
def k0_off3 (i : grid0.Coords) : Fin 2 → Nat :=
  let arg0 : BitVec 32 := BitVec.ofNat 32 (i 0).val
  let c512_i32_9 : BitVec 32 := 512#32
  let v21 : BitVec 32 := Scalar.muli arg0 c512_i32_9
  let v22 : Index := Scalar.indexCast v21
  let c0_10 : Index := 0#32
  ![v22.toNat, 0]
def k0_off4 (i : grid0.Coords) : Fin 2 → Nat :=
  let c0_14 : Index := 0#32
  let arg0 : BitVec 32 := BitVec.ofNat 32 (i 0).val
  let c512_i32_13 : BitVec 32 := 512#32
  let v28 : BitVec 32 := Scalar.muli arg0 c512_i32_13
  let v29 : Index := Scalar.indexCast v28
  ![0, v29.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bitsLt_bf16_f32 : FTy.bits .bf16 < FTy.bits .f32
  inb_S4096x128_S4096x64_0_0 : ∀ a, (![0, 0] : Fin 2 → Nat) a + S4096x64.size a ≤ S4096x128.size a
  h_S4096x64 : 0 < S4096x64.numel
  shapeCasts_S4096x64_S4096x64 : S4096x64.ShapeCasts S4096x64
  packedbf16_S4096x128_S4096x64_0_0 : (Rect.unit (s := S4096x128) ![0, 0] S4096x64.size inb_S4096x128_S4096x64_0_0).PackedRows (EltTy.packing .bf16)
  inb_S4096x64_S4096x64_0_0 : ∀ a, (![0, 0] : Fin 2 → Nat) a + S4096x64.size a ≤ S4096x64.size a
  inb_S4096x128_S4096x64_0_64 : ∀ a, (![0, 64] : Fin 2 → Nat) a + S4096x64.size a ≤ S4096x128.size a
  packedbf16_S4096x128_S4096x64_0_64 : (Rect.unit (s := S4096x128) ![0, 64] S4096x64.size inb_S4096x128_S4096x64_0_64).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  slices_S512x128_o0_0_S512x64 : S512x128.Slices ![0, 0] S512x64
  h_S512x64 : 0 < S512x64.numel
  slices_S512x128_o0_64_S512x64 : S512x128.Slices ![0, 64] S512x64
  shapeCasts_S512x64_S512x64 : S512x64.ShapeCasts S512x64
  h_S4096x512 : 0 < S4096x512.numel
  dot_S512x4096_S4096x128_S512x128_1_0_0_1_n_n_wf : DotDims.WF S512x4096 S4096x128 S512x128 [1] [0] [0] [1] [] []
  dot_S4096x512_S512x64_S4096x64_1_0_0_1_n_n_wf : DotDims.WF S4096x512 S512x64 S4096x64 [1] [0] [0] [1] [] []
  hrank0 : 0 < grid0.rank
  k0_off1_inb : ∀ i : grid0.Coords, ∀ a, (k0_off1 i) a + S512x4096.size a ≤ S4096x4096.size a
  k0_off1_packedbf16 : ∀ i : grid0.Coords, (Rect.unit (s := S4096x4096) (k0_off1 i) S512x4096.size (k0_off1_inb i)).PackedRows (EltTy.packing .bf16)
  k0_off2_inb : ∀ i : grid0.Coords, ∀ a, (k0_off2 i) a + S512x64.size a ≤ S4096x64.size a
  k0_off3_inb : ∀ i : grid0.Coords, ∀ a, (k0_off3 i) a + S512x64.size a ≤ S4096x128.size a
  k0_off3_packedbf16 : ∀ i : grid0.Coords, (Rect.unit (s := S4096x128) (k0_off3 i) S512x64.size (k0_off3_inb i)).PackedRows (EltTy.packing .bf16)
  k0_off4_inb : ∀ i : grid0.Coords, ∀ a, (k0_off4 i) a + S4096x512.size a ≤ S4096x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .bf16 = 32 ∨ (Rect.block (s := S4096x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

abbrev win0_0 : Pipeline.Window sig grid0 :=
  Pipeline.Window.ofSpec (Memref.whole main_call0_v0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .hbm, ⟨3, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.PointRun.lean ====
/-
  One grid point of the sweep, run on any whole memrefs, for any float values.

  The body receives the feature block `x0` (staged once), the matrix's row block `a1` for this point, the output block
  `y` as the point before left it, and the two scratch arrays: `aS`, the matrix rows cached so far, and `hS`, the
  first-hop rows computed so far beside the features. At the first point it also initialises the 128-column scratch
  (zeros on the left, the features on the right). It then caches the row block, multiplies it against the whole
  128-column scratch, stores the left half of the product into the output rows of this block and the right half into the
  scratch rows of this block, and finally adds the cached matrix's column block times the new scratch rows to the whole
  output. Nothing branches on data, every rectangle is inside its buffer, so the body runs whatever the buffers hold.

  Each theorem hands back, beside the triple, the list of pieces each written buffer ends with (newest first) over what
  it held before: what the value proof reads entry by entry.
-/
import proofs.«120233_g65807488909795_cont_9to1_m_465_11_alg».proof.Proof.Gen.KernelIdeal.Frame
import proofs.«120233_g65807488909795_cont_9to1_m_465_11_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The body's one branch: taken at the grid's first point. -/
abbrev isFirst (i : grid0.Coords) : Prop :=
  (Scalar.cmpi .ne (Scalar.extui (Scalar.cmpi .eq (BitVec.ofNat 32 (i 0).val) 0#32)) 0#32) = 1#1

/-- It holds at point 0 and at no other: decided over the eight points. -/
theorem isFirst_iff : ∀ t : Fin cfg0.N, isFirst (grid0.coords t) ↔ t.val = 0 :=
  (by decide +kernel : ∀ t : Fin grid0.N, isFirst (grid0.coords t) ↔ t.val = 0)

/-- What the triple hands the continuation: the two inputs as they were, each written buffer at its pieces over what it
    held. -/
abbrev pointPost (c : Dev nD)
    (arg1 : Memref sig .tc .vmem S4096x64 .bf16) (arg2 : Memref sig .tc .vmem S512x4096 .f32)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (x0 : Vec F S4096x64 .bf16) (a1 : Vec F S512x4096 .f32) (y : Vec F S4096x64 .f32)
    (aS : Vec F S4096x4096 .bf16) (hS : Vec F S4096x128 .bf16)
    (L3 : List (View.Piece (Elt F) S4096x64 .f32)) (L4 : List (View.Piece (Elt F) S4096x4096 .bf16))
    (L5 : List (View.Piece (Elt F) S4096x128 .bf16)) : sProp 𝕄 :=
  iprop(owns (c : Thread nD τ) arg1 fullShare x0 ∗ owns (c : Thread nD τ) arg2 fullShare a1
    ∗ (arg3.view.loc (c : Thread nD τ) ↦[arg3.view.set]{fullShare} arg3.view.writes (Elt F) (harg3.unread y) L3)
    ∗ (arg4.view.loc (c : Thread nD τ) ↦[arg4.view.set]{fullShare} arg4.view.writes (Elt F) (harg4.unread aS) L4)
    ∗ (arg5.view.loc (c : Thread nD τ) ↦[arg5.view.set]{fullShare} arg5.view.writes (Elt F) (harg5.unread hS) L5))

set_option maxHeartbeats 2000000 in
/-- A point after the first: the 128-column scratch is used as the points before left it. -/
noncomputable def runLater (c : Dev nD) (i : grid0.Coords)
    (arg1 : Memref sig .tc .vmem S4096x64 .bf16) (harg1 : arg1.IsWhole)
    (arg2 : Memref sig .tc .vmem S512x4096 .f32) (harg2 : arg2.IsWhole)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (hc : ¬ isFirst i)
    (x0 : Vec F S4096x64 .bf16) (a1 : Vec F S512x4096 .f32) (y : Vec F S4096x64 .f32)
    (aS : Vec F S4096x4096 .bf16) (hS : Vec F S4096x128 .bf16) :
    Σ' (L3 : List (View.Piece (Elt F) S4096x64 .f32)) (L4 : List (View.Piece (Elt F) S4096x4096 .bf16)),
      { L5 : List (View.Piece (Elt F) S4096x128 .bf16) //
        ∀ (E : Set ℕ) (K : PUnit → sProp 𝕄),
          iprop(owns (c : Thread nD τ) arg1 fullShare x0 ∗ owns (c : Thread nD τ) arg2 fullShare a1
              ∗ owns (c : Thread nD τ) arg3 fullShare y ∗ owns (c : Thread nD τ) arg4 fullShare aS
              ∗ owns (c : Thread nD τ) arg5 fullShare hS
              ∗ (pointPost c arg1 arg2 arg3 harg3 arg4 harg4 arg5 harg5 x0 a1 y aS hS L3 L4 L5 -∗ K ⟨⟩))
            ⊢ wp frame (wpE (defs₀ (F := F)) Variants.none c none) E
                (cc0__sgconv_kernel i arg1 harg1 arg2 harg2 arg3 harg3 arg4 harg4 arg5 harg5) K } := by
  refine ⟨?_, ?_, ?_, fun E K => ?run⟩
  case run =>
    simp only [cc0__sgconv_kernel_eq_skeleton]; unfold cc0__sgconv_kernel_skel
    simp only [k0_part1_eq_skeleton]
    unfold pointPost owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    iexact H5

set_option maxHeartbeats 2000000 in
/-- The first point: the 128-column scratch is first filled (zeros, then the features), whatever it held. -/
noncomputable def runFirst (c : Dev nD) (i : grid0.Coords)
    (arg1 : Memref sig .tc .vmem S4096x64 .bf16) (harg1 : arg1.IsWhole)
    (arg2 : Memref sig .tc .vmem S512x4096 .f32) (harg2 : arg2.IsWhole)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (hc : isFirst i)
    (x0 : Vec F S4096x64 .bf16) (a1 : Vec F S512x4096 .f32) (y : Vec F S4096x64 .f32)
    (aS : Vec F S4096x4096 .bf16) (hS : Vec F S4096x128 .bf16) :
    Σ' (L3 : List (View.Piece (Elt F) S4096x64 .f32)) (L4 : List (View.Piece (Elt F) S4096x4096 .bf16)),
      { L5 : List (View.Piece (Elt F) S4096x128 .bf16) //
        ∀ (E : Set ℕ) (K : PUnit → sProp 𝕄),
          iprop(owns (c : Thread nD τ) arg1 fullShare x0 ∗ owns (c : Thread nD τ) arg2 fullShare a1
              ∗ owns (c : Thread nD τ) arg3 fullShare y ∗ owns (c : Thread nD τ) arg4 fullShare aS
              ∗ owns (c : Thread nD τ) arg5 fullShare hS
              ∗ (pointPost c arg1 arg2 arg3 harg3 arg4 harg4 arg5 harg5 x0 a1 y aS hS L3 L4 L5 -∗ K ⟨⟩))
            ⊢ wp frame (wpE (defs₀ (F := F)) Variants.none c none) E
                (cc0__sgconv_kernel i arg1 harg1 arg2 harg2 arg3 harg3 arg4 harg4 arg5 harg5) K } := by
  refine ⟨?_, ?_, ?_, fun E K => ?run⟩
  case run =>
    simp only [cc0__sgconv_kernel_eq_skeleton]; unfold cc0__sgconv_kernel_skel
    simp only [k0_part1_eq_skeleton]
    unfold pointPost owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    iexact H5

end Cert.KernelIdeal.Hand

end
-- ==== Proof.FrameRun.lean ====
/-
  The frame of the program at any float values: every weakly fair execution terminates, nothing faults, and the two
  argument arrays end as they began.

  For this claim nothing need be said about what the body leaves anywhere: the body takes no branch, address or trip
  count from data, so it runs from any contents of the staging buffers and of the two scratch arrays (the point's run),
  and the pipeline never writes an input array. The proof data are therefore relational with the relation that holds of
  any two contents, and the invariant between points is the scratch at some contents.
-/
import proofs.«120233_g65807488909795_cont_9to1_m_465_11_alg».proof.Proof.PointRun
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S4096x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)
/-- The two scratch arrays: the cached matrix and the 128-column array of first-hop rows beside the features. -/
abbrev scA : Memref sig .tc .vmem S4096x4096 .bf16 := Memref.whole cc0_scratch0
abbrev scH : Memref sig .tc .vmem S4096x128 .bf16 := Memref.whole cc0_scratch1

/-- The invariant a region hands its body when nothing is tracked: each scratch array at some contents, the generator
    register at some state. -/
theorem PhiA_eq (c : Dev nD) :
    (Pipeline.ΦA spec0 c : sProp 𝕄)
      = iprop(iprop((∃ d, owns (c : Thread nD τ) scA fullShare d) ∗ (∃ d, owns (c : Thread nD τ) scH fullShare d)) ∗ (∃ r, prngReg c r)) := by
  unfold Pipeline.ΦA; rw [scopedRest0_eq]; simp only [scA, scH, owns_whole]; try rfl

/-- A buffer held at contents `f` is owned at what `f` reads. -/
theorem owns_of_pointsTo {S : Shape} {e : EltTy} (c : Dev nD) (arg : Memref sig .tc .vmem S e) (f : arg.view.ty.Contents (Elt F)) :
    (arg.view.loc (c : Thread nD τ) ↦[arg.view.set]{fullShare} f : sProp 𝕄) ⊢ owns (c : Thread nD τ) arg fullShare (arg.view.read (Elt F) f) := by
  unfold owns
  iintro H
  iexists f
  isplitr
  · ipureintro; rfl
  iexact H

/-- … hence at some contents, -/
theorem owns_some_of_pointsTo {S : Shape} {e : EltTy} (c : Dev nD) (arg : Memref sig .tc .vmem S e) (f : arg.view.ty.Contents (Elt F)) :
    (arg.view.loc (c : Thread nD τ) ↦[arg.view.set]{fullShare} f : sProp 𝕄) ⊢ iprop(∃ d, owns (c : Thread nD τ) arg fullShare d) := by
  iintro H
  iexists (arg.view.read (Elt F) f)
  iapply (owns_of_pointsTo c arg f)
  iexact H

/-- … and at some contents of which nothing is said. -/
theorem owns_any_of_pointsTo {S : Shape} {e : EltTy} (c : Dev nD) (arg : Memref sig .tc .vmem S e) (f : arg.view.ty.Contents (Elt F)) :
    (arg.view.loc (c : Thread nD τ) ↦[arg.view.set]{fullShare} f : sProp 𝕄) ⊢ iprop(∃ X, ⌜True⌝ ∗ owns (c : Thread nD τ) arg fullShare X) := by
  iintro H
  iexists (arg.view.read (Elt F) f)
  isplitr
  · ipureintro; trivial
  iapply (owns_of_pointsTo c arg f)
  iexact H

/-- A buffer owned at some contents, of which nothing is said. -/
theorem owns_any_of_owns {S : Shape} {e : EltTy} (c : Dev nD) (arg : Memref sig .tc .vmem S e) (X : S.Idx → Elt F e) :
    (owns (c : Thread nD τ) arg fullShare X : sProp 𝕄) ⊢ iprop(∃ X, ⌜True⌝ ∗ owns (c : Thread nD τ) arg fullShare X) := by
  iintro H
  iexists X
  isplitr
  · ipureintro; trivial
  iexact H

/-- Proof data that name the arrays as the region finds them and constrain nothing the body leaves. -/
def looseDat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem looseDat_A (c : Dev nD) (w : Fin cfg0.W) : (looseDat m c).A w = V m c (Pipeline.arrRef spec0 w) := by
  dsimp only [looseDat]

set_option maxHeartbeats 800000 in
/-- The body at the first point, from any contents. -/
theorem loose_body_first (c : Dev nD) (t : Fin cfg0.N) (hc : isFirst (grid0.coords t))
    (Y0 : Vec F S4096x64 .bf16) (Y1 : Vec F S512x4096 .f32) (Y2 : Vec F S4096x64 .f32) :
    iprop(Pipeline.ΦA spec0 c ∗ (looseDat m c).owesAt () t.castSucc
        ∗ owns (c : Thread nD τ) (ms0 t) fullShare Y0 ∗ owns (c : Thread nD τ) (ms1 t) fullShare Y1
        ∗ owns (c : Thread nD τ) (ms2 t) fullShare Y2)
      ⊢ wp frame (wpE (defs₀ (F := F)) Variants.none c none) Set.univ (bodyAt0 t) (fun _ =>
          iprop(Pipeline.ΦA spec0 c ∗ (looseDat m c).owesAt () t.succ
            ∗ (∃ X, ⌜True⌝ ∗ owns (c : Thread nD τ) (ms0 t) fullShare X)
            ∗ (∃ X, ⌜True⌝ ∗ owns (c : Thread nD τ) (ms1 t) fullShare X)
            ∗ (∃ X, ⌜True⌝ ∗ owns (c : Thread nD τ) (ms2 t) fullShare X))) := by
  unfold bodyAt0
  rw [show (looseDat m c).owesAt () t.succ = (looseDat m c).owesAt () t.castSucc from rfl, PhiA_eq]
  iintro ⟨⟨⟨⟨%dA, HA⟩, ⟨%dH, HH⟩⟩, Hg⟩, Ho, H0, H1, H2⟩
  iapply ((runFirst c (grid0.coords t) (ms0 t) (hs0 t) (ms1 t) (hs1 t) (ms2 t) (hs2 t) scA (Memref.isWhole_whole _) scH (Memref.isWhole_whole _) hc Y0 Y1 Y2 dA dH).2.2.2 Set.univ _)
  isplitl [H0]; · iexact H0
  isplitl [H1]; · iexact H1
  isplitl [H2]; · iexact H2
  isplitl [HA]; · iexact HA
  isplitl [HH]; · iexact HH
  iintro ⟨H0, H1, H3, H4, H5⟩
  isplitl [H4 H5 Hg]
  · isplitl [H4 H5]
    · isplitl [H4]
      · iapply (owns_some_of_pointsTo c scA _); iexact H4
      · iapply (owns_some_of_pointsTo c scH _); iexact H5
    iexact Hg
  isplitl [Ho]; · iexact Ho
  isplitl [H0]; · iapply (owns_any_of_owns c (ms0 t) Y0); iexact H0
  isplitl [H1]; · iapply (owns_any_of_owns c (ms1 t) Y1); iexact H1
  iapply (owns_any_of_pointsTo c (ms2 t) _); iexact H3

set_option maxHeartbeats 800000 in
/-- The body at a later point, from any contents. -/
theorem loose_body_later (c : Dev nD) (t : Fin cfg0.N) (hc : ¬ isFirst (grid0.coords t))
    (Y0 : Vec F S4096x64 .bf16) (Y1 : Vec F S512x4096 .f32) (Y2 : Vec F S4096x64 .f32) :
    iprop(Pipeline.ΦA spec0 c ∗ (looseDat m c).owesAt () t.castSucc
        ∗ owns (c : Thread nD τ) (ms0 t) fullShare Y0 ∗ owns (c : Thread nD τ) (ms1 t) fullShare Y1
        ∗ owns (c : Thread nD τ) (ms2 t) fullShare Y2)
      ⊢ wp frame (wpE (defs₀ (F := F)) Variants.none c none) Set.univ (bodyAt0 t) (fun _ =>
          iprop(Pipeline.ΦA spec0 c ∗ (looseDat m c).owesAt () t.succ
            ∗ (∃ X, ⌜True⌝ ∗ owns (c : Thread nD τ) (ms0 t) fullShare X)
            ∗ (∃ X, ⌜True⌝ ∗ owns (c : Thread nD τ) (ms1 t) fullShare X)
            ∗ (∃ X, ⌜True⌝ ∗ owns (c : Thread nD τ) (ms2 t) fullShare X))) := by
  unfold bodyAt0
  rw [show (looseDat m c).owesAt () t.succ = (looseDat m c).owesAt () t.castSucc from rfl, PhiA_eq]
  iintro ⟨⟨⟨⟨%dA, HA⟩, ⟨%dH, HH⟩⟩, Hg⟩, Ho, H0, H1, H2⟩
  iapply ((runLater c (grid0.coords t) (ms0 t) (hs0 t) (ms1 t) (hs1 t) (ms2 t) (hs2 t) scA (Memref.isWhole_whole _) scH (Memref.isWhole_whole _) hc Y0 Y1 Y2 dA dH).2.2.2 Set.univ _)
  isplitl [H0]; · iexact H0
  isplitl [H1]; · iexact H1
  isplitl [H2]; · iexact H2
  isplitl [HA]; · iexact HA
  isplitl [HH]; · iexact HH
  iintro ⟨H0, H1, H3, H4, H5⟩
  isplitl [H4 H5 Hg]
  · isplitl [H4 H5]
    · isplitl [H4]
      · iapply (owns_some_of_pointsTo c scA _); iexact H4
      · iapply (owns_some_of_pointsTo c scH _); iexact H5
    iexact Hg
  isplitl [Ho]; · iexact Ho
  isplitl [H0]; · iapply (owns_any_of_owns c (ms0 t) Y0); iexact H0
  isplitl [H1]; · iapply (owns_any_of_owns c (ms1 t) Y1); iexact H1
  iapply (owns_any_of_pointsTo c (ms2 t) _); iexact H3

/-- The body at any point, from any contents: by the point's run, in whichever case the point is. -/
theorem loose_body (c : Dev nD) (t : Fin cfg0.N)
    (Y0 : Vec F S4096x64 .bf16) (Y1 : Vec F S512x4096 .f32) (Y2 : Vec F S4096x64 .f32) :
    iprop(Pipeline.ΦA spec0 c ∗ (looseDat m c).owesAt () t.castSucc
        ∗ owns (c : Thread nD τ) (ms0 t) fullShare Y0 ∗ owns (c : Thread nD τ) (ms1 t) fullShare Y1
        ∗ owns (c : Thread nD τ) (ms2 t) fullShare Y2)
      ⊢ wp frame (wpE (defs₀ (F := F)) Variants.none c none) Set.univ (bodyAt0 t) (fun _ =>
          iprop(Pipeline.ΦA spec0 c ∗ (looseDat m c).owesAt () t.succ
            ∗ (∃ X, ⌜True⌝ ∗ owns (c : Thread nD τ) (ms0 t) fullShare X)
            ∗ (∃ X, ⌜True⌝ ∗ owns (c : Thread nD τ) (ms1 t) fullShare X)
            ∗ (∃ X, ⌜True⌝ ∗ owns (c : Thread nD τ) (ms2 t) fullShare X))) := by
  by_cases hc : isFirst (grid0.coords t)
  · exact loose_body_first m c t hc Y0 Y1 Y2
  · exact loose_body_later m c t hc Y0 Y1 Y2

/-- The library's relational body obligation, at every point. -/
theorem loose_obligation (c : Dev nD) :
    (looseDat (F := F) m c).BodyObligation (defs₀ (F := F)) Variants.none () Set.univ := fun t Y _ => by
  rw [bigSep_W0, bigSep_W0]
  exact loose_body m c t (Y 0) (Y 1) (Y 2)

set_option backward.isDefEq.respectTransparency.types false in
/-- The run: every weakly fair execution of @main terminates; each array then holds contents the relation admits (an
    input its entry contents), every other unscoped buffer what it held at the region's entry. -/
theorem loose_run : θ_run defs (onTc (τ := τ) (main (F := F))) (s₀ m ρ) (Pipeline.RDat.FramePost cfg0 (looseDat m) (V m)) :=
  Pipeline.RDat.θ_run_frame cfgs (0 : Fin 1) launch0 defs₀ Variants.none (looseDat m) m ρ main
    (hbody := loose_obligation m) (hshare := fun c => (looseDat m c).share_full fun _ => rfl)
    (howed := fun _ _ => rfl) (V := V m) (hmain := hmain m Variants.none) (hA := looseDat_A m) (hΦ := fun _ _ => rfl)

/-- THE FRAME at any float values: the program runs to the end and its two argument arrays are unchanged — the feature
    array bypasses the region (the region stages its converted copy), the matrix is an input window's array. -/
theorem frame_holds : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     (Pipeline.RDat.FramePost.arr_in h c 1 rfl).trans ((looseDat_A m c 1).trans (V_main_arg1 m c))⟩) (loose_run m ρ)

end Cert.KernelIdeal.Hand

end
-- ==== Proof.PointRunWord.lean ====
/-
  One grid point of the sweep, run on any whole memrefs, for any float values.

  The body receives the feature block `x0` (staged once), the matrix's row block `a1` for this point, the output block
  `y` as the point before left it, and the two scratch arrays: `aS`, the matrix rows cached so far, and `hS`, the
  first-hop rows computed so far beside the features. At the first point it also initialises the 128-column scratch
  (zeros on the left, the features on the right). It then caches the row block, multiplies it against the whole
  128-column scratch, stores the left half of the product into the output rows of this block and the right half into the
  scratch rows of this block, and finally adds the cached matrix's column block times the new scratch rows to the whole
  output. Nothing branches on data, every rectangle is inside its buffer, so the body runs whatever the buffers hold.

  Each theorem hands back, beside the triple, the list of pieces each written buffer ends with (newest first) over what
  it held before: what the value proof reads entry by entry.
-/
import proofs.«120233_g65807488909795_cont_9to1_m_465_11_alg».proof.Proof.Gen.Kernel.Frame
import proofs.«120233_g65807488909795_cont_9to1_m_465_11_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The body's one branch: taken at the grid's first point. -/
abbrev isFirst (i : grid0.Coords) : Prop :=
  (Scalar.cmpi .ne (Scalar.extui (Scalar.cmpi .eq (BitVec.ofNat 32 (i 0).val) 0#32)) 0#32) = 1#1

/-- It holds at point 0 and at no other: decided over the eight points. -/
theorem isFirst_iff : ∀ t : Fin cfg0.N, isFirst (grid0.coords t) ↔ t.val = 0 :=
  (by decide +kernel : ∀ t : Fin grid0.N, isFirst (grid0.coords t) ↔ t.val = 0)

/-- What the triple hands the continuation: the two inputs as they were, each written buffer at its pieces over what it
    held. -/
abbrev pointPost (c : Dev nD)
    (arg1 : Memref sig .tc .vmem S4096x64 .bf16) (arg2 : Memref sig .tc .vmem S512x4096 .f32)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (x0 : Vec F S4096x64 .bf16) (a1 : Vec F S512x4096 .f32) (y : Vec F S4096x64 .f32)
    (aS : Vec F S4096x4096 .bf16) (hS : Vec F S4096x128 .bf16)
    (L3 : List (View.Piece (Elt F) S4096x64 .f32)) (L4 : List (View.Piece (Elt F) S4096x4096 .bf16))
    (L5 : List (View.Piece (Elt F) S4096x128 .bf16)) : sProp 𝕄 :=
  iprop(owns (c : Thread nD τ) arg1 fullShare x0 ∗ owns (c : Thread nD τ) arg2 fullShare a1
    ∗ (arg3.view.loc (c : Thread nD τ) ↦[arg3.view.set]{fullShare} arg3.view.writes (Elt F) (harg3.unread y) L3)
    ∗ (arg4.view.loc (c : Thread nD τ) ↦[arg4.view.set]{fullShare} arg4.view.writes (Elt F) (harg4.unread aS) L4)
    ∗ (arg5.view.loc (c : Thread nD τ) ↦[arg5.view.set]{fullShare} arg5.view.writes (Elt F) (harg5.unread hS) L5))

set_option maxHeartbeats 2000000 in
/-- A point after the first: the 128-column scratch is used as the points before left it. -/
noncomputable def runLater (c : Dev nD) (i : grid0.Coords)
    (arg1 : Memref sig .tc .vmem S4096x64 .bf16) (harg1 : arg1.IsWhole)
    (arg2 : Memref sig .tc .vmem S512x4096 .f32) (harg2 : arg2.IsWhole)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (hc : ¬ isFirst i)
    (x0 : Vec F S4096x64 .bf16) (a1 : Vec F S512x4096 .f32) (y : Vec F S4096x64 .f32)
    (aS : Vec F S4096x4096 .bf16) (hS : Vec F S4096x128 .bf16) :
    Σ' (L3 : List (View.Piece (Elt F) S4096x64 .f32)) (L4 : List (View.Piece (Elt F) S4096x4096 .bf16)),
      { L5 : List (View.Piece (Elt F) S4096x128 .bf16) //
        ∀ (E : Set ℕ) (K : PUnit → sProp 𝕄),
          iprop(owns (c : Thread nD τ) arg1 fullShare x0 ∗ owns (c : Thread nD τ) arg2 fullShare a1
              ∗ owns (c : Thread nD τ) arg3 fullShare y ∗ owns (c : Thread nD τ) arg4 fullShare aS
              ∗ owns (c : Thread nD τ) arg5 fullShare hS
              ∗ (pointPost c arg1 arg2 arg3 harg3 arg4 harg4 arg5 harg5 x0 a1 y aS hS L3 L4 L5 -∗ K ⟨⟩))
            ⊢ wp frame (wpE (defs₀ (F := F)) Variants.none c none) E
                (cc0__sgconv_kernel i arg1 harg1 arg2 harg2 arg3 harg3 arg4 harg4 arg5 harg5) K } := by
  refine ⟨?_, ?_, ?_, fun E K => ?run⟩
  case run =>
    simp only [cc0__sgconv_kernel_eq_skeleton]; unfold cc0__sgconv_kernel_skel
    simp only [k0_part1_eq_skeleton]
    unfold pointPost owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    iexact H5

set_option maxHeartbeats 2000000 in
/-- The first point: the 128-column scratch is first filled (zeros, then the features), whatever it held. -/
noncomputable def runFirst (c : Dev nD) (i : grid0.Coords)
    (arg1 : Memref sig .tc .vmem S4096x64 .bf16) (harg1 : arg1.IsWhole)
    (arg2 : Memref sig .tc .vmem S512x4096 .f32) (harg2 : arg2.IsWhole)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (hc : isFirst i)
    (x0 : Vec F S4096x64 .bf16) (a1 : Vec F S512x4096 .f32) (y : Vec F S4096x64 .f32)
    (aS : Vec F S4096x4096 .bf16) (hS : Vec F S4096x128 .bf16) :
    Σ' (L3 : List (View.Piece (Elt F) S4096x64 .f32)) (L4 : List (View.Piece (Elt F) S4096x4096 .bf16)),
      { L5 : List (View.Piece (Elt F) S4096x128 .bf16) //
        ∀ (E : Set ℕ) (K : PUnit → sProp 𝕄),
          iprop(owns (c : Thread nD τ) arg1 fullShare x0 ∗ owns (c : Thread nD τ) arg2 fullShare a1
              ∗ owns (c : Thread nD τ) arg3 fullShare y ∗ owns (c : Thread nD τ) arg4 fullShare aS
              ∗ owns (c : Thread nD τ) arg5 fullShare hS
              ∗ (pointPost c arg1 arg2 arg3 harg3 arg4 harg4 arg5 harg5 x0 a1 y aS hS L3 L4 L5 -∗ K ⟨⟩))
            ⊢ wp frame (wpE (defs₀ (F := F)) Variants.none c none) E
                (cc0__sgconv_kernel i arg1 harg1 arg2 harg2 arg3 harg3 arg4 harg4 arg5 harg5) K } := by
  refine ⟨?_, ?_, ?_, fun E K => ?run⟩
  case run =>
    simp only [cc0__sgconv_kernel_eq_skeleton]; unfold cc0__sgconv_kernel_skel
    simp only [k0_part1_eq_skeleton]
    unfold pointPost owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    iexact H5

end Cert.Kernel.Hand

end
-- ==== Proof.FrameRunWord.lean ====
/-
  The frame of the program at any float values: every weakly fair execution terminates, nothing faults, and the two
  argument arrays end as they began.

  For this claim nothing need be said about what the body leaves anywhere: the body takes no branch, address or trip
  count from data, so it runs from any contents of the staging buffers and of the two scratch arrays (the point's run),
  and the pipeline never writes an input array. The proof data are therefore relational with the relation that holds of
  any two contents, and the invariant between points is the scratch at some contents.
-/
import proofs.«120233_g65807488909795_cont_9to1_m_465_11_alg».proof.Proof.PointRunWord
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S4096x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)
/-- The two scratch arrays: the cached matrix and the 128-column array of first-hop rows beside the features. -/
abbrev scA : Memref sig .tc .vmem S4096x4096 .bf16 := Memref.whole cc0_scratch0
abbrev scH : Memref sig .tc .vmem S4096x128 .bf16 := Memref.whole cc0_scratch1

/-- The invariant a region hands its body when nothing is tracked: each scratch array at some contents, the generator
    register at some state. -/
theorem PhiA_eq (c : Dev nD) :
    (Pipeline.ΦA spec0 c : sProp 𝕄)
      = iprop(iprop((∃ d, owns (c : Thread nD τ) scA fullShare d) ∗ (∃ d, owns (c : Thread nD τ) scH fullShare d)) ∗ (∃ r, prngReg c r)) := by
  unfold Pipeline.ΦA; rw [scopedRest0_eq]; simp only [scA, scH, owns_whole]; try rfl

/-- A buffer held at contents `f` is owned at what `f` reads. -/
theorem owns_of_pointsTo {S : Shape} {e : EltTy} (c : Dev nD) (arg : Memref sig .tc .vmem S e) (f : arg.view.ty.Contents (Elt F)) :
    (arg.view.loc (c : Thread nD τ) ↦[arg.view.set]{fullShare} f : sProp 𝕄) ⊢ owns (c : Thread nD τ) arg fullShare (arg.view.read (Elt F) f) := by
  unfold owns
  iintro H
  iexists f
  isplitr
  · ipureintro; rfl
  iexact H

/-- … hence at some contents, -/
theorem owns_some_of_pointsTo {S : Shape} {e : EltTy} (c : Dev nD) (arg : Memref sig .tc .vmem S e) (f : arg.view.ty.Contents (Elt F)) :
    (arg.view.loc (c : Thread nD τ) ↦[arg.view.set]{fullShare} f : sProp 𝕄) ⊢ iprop(∃ d, owns (c : Thread nD τ) arg fullShare d) := by
  iintro H
  iexists (arg.view.read (Elt F) f)
  iapply (owns_of_pointsTo c arg f)
  iexact H

/-- … and at some contents of which nothing is said. -/
theorem owns_any_of_pointsTo {S : Shape} {e : EltTy} (c : Dev nD) (arg : Memref sig .tc .vmem S e) (f : arg.view.ty.Contents (Elt F)) :
    (arg.view.loc (c : Thread nD τ) ↦[arg.view.set]{fullShare} f : sProp 𝕄) ⊢ iprop(∃ X, ⌜True⌝ ∗ owns (c : Thread nD τ) arg fullShare X) := by
  iintro H
  iexists (arg.view.read (Elt F) f)
  isplitr
  · ipureintro; trivial
  iapply (owns_of_pointsTo c arg f)
  iexact H

/-- A buffer owned at some contents, of which nothing is said. -/
theorem owns_any_of_owns {S : Shape} {e : EltTy} (c : Dev nD) (arg : Memref sig .tc .vmem S e) (X : S.Idx → Elt F e) :
    (owns (c : Thread nD τ) arg fullShare X : sProp 𝕄) ⊢ iprop(∃ X, ⌜True⌝ ∗ owns (c : Thread nD τ) arg fullShare X) := by
  iintro H
  iexists X
  isplitr
  · ipureintro; trivial
  iexact H

/-- Proof data that name the arrays as the region finds them and constrain nothing the body leaves. -/
def looseDat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem looseDat_A (c : Dev nD) (w : Fin cfg0.W) : (looseDat m c).A w = V m c (Pipeline.arrRef spec0 w) := by
  dsimp only [looseDat]

set_option maxHeartbeats 800000 in
/-- The body at the first point, from any contents. -/
theorem loose_body_first (c : Dev nD) (t : Fin cfg0.N) (hc : isFirst (grid0.coords t))
    (Y0 : Vec F S4096x64 .bf16) (Y1 : Vec F S512x4096 .f32) (Y2 : Vec F S4096x64 .f32) :
    iprop(Pipeline.ΦA spec0 c ∗ (looseDat m c).owesAt () t.castSucc
        ∗ owns (c : Thread nD τ) (ms0 t) fullShare Y0 ∗ owns (c : Thread nD τ) (ms1 t) fullShare Y1
        ∗ owns (c : Thread nD τ) (ms2 t) fullShare Y2)
      ⊢ wp frame (wpE (defs₀ (F := F)) Variants.none c none) Set.univ (bodyAt0 t) (fun _ =>
          iprop(Pipeline.ΦA spec0 c ∗ (looseDat m c).owesAt () t.succ
            ∗ (∃ X, ⌜True⌝ ∗ owns (c : Thread nD τ) (ms0 t) fullShare X)
            ∗ (∃ X, ⌜True⌝ ∗ owns (c : Thread nD τ) (ms1 t) fullShare X)
            ∗ (∃ X, ⌜True⌝ ∗ owns (c : Thread nD τ) (ms2 t) fullShare X))) := by
  unfold bodyAt0
  rw [show (looseDat m c).owesAt () t.succ = (looseDat m c).owesAt () t.castSucc from rfl, PhiA_eq]
  iintro ⟨⟨⟨⟨%dA, HA⟩, ⟨%dH, HH⟩⟩, Hg⟩, Ho, H0, H1, H2⟩
  iapply ((runFirst c (grid0.coords t) (ms0 t) (hs0 t) (ms1 t) (hs1 t) (ms2 t) (hs2 t) scA (Memref.isWhole_whole _) scH (Memref.isWhole_whole _) hc Y0 Y1 Y2 dA dH).2.2.2 Set.univ _)
  isplitl [H0]; · iexact H0
  isplitl [H1]; · iexact H1
  isplitl [H2]; · iexact H2
  isplitl [HA]; · iexact HA
  isplitl [HH]; · iexact HH
  iintro ⟨H0, H1, H3, H4, H5⟩
  isplitl [H4 H5 Hg]
  · isplitl [H4 H5]
    · isplitl [H4]
      · iapply (owns_some_of_pointsTo c scA _); iexact H4
      · iapply (owns_some_of_pointsTo c scH _); iexact H5
    iexact Hg
  isplitl [Ho]; · iexact Ho
  isplitl [H0]; · iapply (owns_any_of_owns c (ms0 t) Y0); iexact H0
  isplitl [H1]; · iapply (owns_any_of_owns c (ms1 t) Y1); iexact H1
  iapply (owns_any_of_pointsTo c (ms2 t) _); iexact H3

set_option maxHeartbeats 800000 in
/-- The body at a later point, from any contents. -/
theorem loose_body_later (c : Dev nD) (t : Fin cfg0.N) (hc : ¬ isFirst (grid0.coords t))
    (Y0 : Vec F S4096x64 .bf16) (Y1 : Vec F S512x4096 .f32) (Y2 : Vec F S4096x64 .f32) :
    iprop(Pipeline.ΦA spec0 c ∗ (looseDat m c).owesAt () t.castSucc
        ∗ owns (c : Thread nD τ) (ms0 t) fullShare Y0 ∗ owns (c : Thread nD τ) (ms1 t) fullShare Y1
        ∗ owns (c : Thread nD τ) (ms2 t) fullShare Y2)
      ⊢ wp frame (wpE (defs₀ (F := F)) Variants.none c none) Set.univ (bodyAt0 t) (fun _ =>
          iprop(Pipeline.ΦA spec0 c ∗ (looseDat m c).owesAt () t.succ
            ∗ (∃ X, ⌜True⌝ ∗ owns (c : Thread nD τ) (ms0 t) fullShare X)
            ∗ (∃ X, ⌜True⌝ ∗ owns (c : Thread nD τ) (ms1 t) fullShare X)
            ∗ (∃ X, ⌜True⌝ ∗ owns (c : Thread nD τ) (ms2 t) fullShare X))) := by
  unfold bodyAt0
  rw [show (looseDat m c).owesAt () t.succ = (looseDat m c).owesAt () t.castSucc from rfl, PhiA_eq]
  iintro ⟨⟨⟨⟨%dA, HA⟩, ⟨%dH, HH⟩⟩, Hg⟩, Ho, H0, H1, H2⟩
  iapply ((runLater c (grid0.coords t) (ms0 t) (hs0 t) (ms1 t) (hs1 t) (ms2 t) (hs2 t) scA (Memref.isWhole_whole _) scH (Memref.isWhole_whole _) hc Y0 Y1 Y2 dA dH).2.2.2 Set.univ _)
  isplitl [H0]; · iexact H0
  isplitl [H1]; · iexact H1
  isplitl [H2]; · iexact H2
  isplitl [HA]; · iexact HA
  isplitl [HH]; · iexact HH
  iintro ⟨H0, H1, H3, H4, H5⟩
  isplitl [H4 H5 Hg]
  · isplitl [H4 H5]
    · isplitl [H4]
      · iapply (owns_some_of_pointsTo c scA _); iexact H4
      · iapply (owns_some_of_pointsTo c scH _); iexact H5
    iexact Hg
  isplitl [Ho]; · iexact Ho
  isplitl [H0]; · iapply (owns_any_of_owns c (ms0 t) Y0); iexact H0
  isplitl [H1]; · iapply (owns_any_of_owns c (ms1 t) Y1); iexact H1
  iapply (owns_any_of_pointsTo c (ms2 t) _); iexact H3

/-- The body at any point, from any contents: by the point's run, in whichever case the point is. -/
theorem loose_body (c : Dev nD) (t : Fin cfg0.N)
    (Y0 : Vec F S4096x64 .bf16) (Y1 : Vec F S512x4096 .f32) (Y2 : Vec F S4096x64 .f32) :
    iprop(Pipeline.ΦA spec0 c ∗ (looseDat m c).owesAt () t.castSucc
        ∗ owns (c : Thread nD τ) (ms0 t) fullShare Y0 ∗ owns (c : Thread nD τ) (ms1 t) fullShare Y1
        ∗ owns (c : Thread nD τ) (ms2 t) fullShare Y2)
      ⊢ wp frame (wpE (defs₀ (F := F)) Variants.none c none) Set.univ (bodyAt0 t) (fun _ =>
          iprop(Pipeline.ΦA spec0 c ∗ (looseDat m c).owesAt () t.succ
            ∗ (∃ X, ⌜True⌝ ∗ owns (c : Thread nD τ) (ms0 t) fullShare X)
            ∗ (∃ X, ⌜True⌝ ∗ owns (c : Thread nD τ) (ms1 t) fullShare X)
            ∗ (∃ X, ⌜True⌝ ∗ owns (c : Thread nD τ) (ms2 t) fullShare X))) := by
  by_cases hc : isFirst (grid0.coords t)
  · exact loose_body_first m c t hc Y0 Y1 Y2
  · exact loose_body_later m c t hc Y0 Y1 Y2

/-- The library's relational body obligation, at every point. -/
theorem loose_obligation (c : Dev nD) :
    (looseDat (F := F) m c).BodyObligation (defs₀ (F := F)) Variants.none () Set.univ := fun t Y _ => by
  rw [bigSep_W0, bigSep_W0]
  exact loose_body m c t (Y 0) (Y 1) (Y 2)

set_option backward.isDefEq.respectTransparency.types false in
/-- The run: every weakly fair execution of @main terminates; each array then holds contents the relation admits (an
    input its entry contents), every other unscoped buffer what it held at the region's entry. -/
theorem loose_run : θ_run defs (onTc (τ := τ) (main (F := F))) (s₀ m ρ) (Pipeline.RDat.FramePost cfg0 (looseDat m) (V m)) :=
  Pipeline.RDat.θ_run_frame cfgs (0 : Fin 1) launch0 defs₀ Variants.none (looseDat m) m ρ main
    (hbody := loose_obligation m) (hshare := fun c => (looseDat m c).share_full fun _ => rfl)
    (howed := fun _ _ => rfl) (V := V m) (hmain := hmain m Variants.none) (hA := looseDat_A m) (hΦ := fun _ _ => rfl)

/-- THE FRAME at any float values: the program runs to the end and its two argument arrays are unchanged — the feature
    array bypasses the region (the region stages its converted copy), the matrix is an input window's array. -/
theorem frame_holds : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     (Pipeline.RDat.FramePost.arr_in h c 1 rfl).trans ((looseDat_A m c 1).trans (V_main_arg1 m c))⟩) (loose_run m ρ)

end Cert.Kernel.Hand

end
-- ==== Proof.PointGeometry.lean ====
/-
  Where the point's rectangles lie. At grid point `t` (of eight) the body addresses rows `512 · t … 512 · t + 511` of the
  cached matrix, of the output block and of the 128-column scratch, and columns `512 · t … 512 · t + 511` of the cached
  matrix: the word arithmetic that computes those offsets (a 32-bit product, cast to an index) never wraps on the grid,
  so each offset is its closed form. Also: a load of a whole buffer that nothing has been stored into reads what the
  buffer holds.
-/
import proofs.«120233_g65807488909795_cont_9to1_m_465_11_alg».proof.Proof.PointRun
import Idealize.ShloMosaic.Lib.Pipeline.Value
import Idealize.ShloMosaic.Lib.Pipeline.FrameBody
import Idealize.ShloMosaic.Lib.WritesUnit

noncomputable section

namespace Cert.KernelIdeal.Hand

open Idealize.ShloMosaic Idealize.ShloMosaic.TcCoe
open Idealize.SL.Sem
open Cert.KernelIdeal Cert.KernelIdeal.Gen

/-- The grid has eight points. -/
theorem point_lt (t : Fin cfg0.N) : t.val < 8 := lt_of_lt_of_eq t.isLt (show cfg0.N = 8 from N_0)

/-- Rows `512 · t` on, every column: the cached matrix's row block. -/
theorem off1_eq (t : Fin cfg0.N) : k0_off1 (grid0.coords t) = ![512 * t.val, 0] :=
  funext fun a => (by decide +kernel : ∀ t : Fin grid0.N, ∀ a : Fin 2, k0_off1 (grid0.coords t) a = (![512 * t.val, 0] : Fin 2 → ℕ) a) t a
/-- Rows `512 · t` on of the output block. -/
theorem off2_eq (t : Fin cfg0.N) : k0_off2 (grid0.coords t) = ![512 * t.val, 0] :=
  funext fun a => (by decide +kernel : ∀ t : Fin grid0.N, ∀ a : Fin 2, k0_off2 (grid0.coords t) a = (![512 * t.val, 0] : Fin 2 → ℕ) a) t a
/-- Rows `512 · t` on, left 64 columns, of the 128-column scratch. -/
theorem off3_eq (t : Fin cfg0.N) : k0_off3 (grid0.coords t) = ![512 * t.val, 0] :=
  funext fun a => (by decide +kernel : ∀ t : Fin grid0.N, ∀ a : Fin 2, k0_off3 (grid0.coords t) a = (![512 * t.val, 0] : Fin 2 → ℕ) a) t a
/-- Every row, columns `512 · t` on: the cached matrix's column block. -/
theorem off4_eq (t : Fin cfg0.N) : k0_off4 (grid0.coords t) = ![0, 512 * t.val] :=
  funext fun a => (by decide +kernel : ∀ t : Fin grid0.N, ∀ a : Fin 2, k0_off4 (grid0.coords t) a = (![0, 512 * t.val] : Fin 2 → ℕ) a) t a

/-- A load of the whole of a buffer holding `X`, nothing stored since, reads `X`. -/
theorem readAt_whole_unread {F : FTy → Type} [FloatOps F] {S : Shape} {e : EltTy} (arg : Memref sig .tc .vmem S e) (h : arg.IsWhole)
    (X : S.Idx → Elt F e) {off : Fin S.rank → ℕ} (hz : off = fun _ => 0) (inb : ∀ a, off a + S.size a ≤ S.size a) :
    View.readAt (Elt F) arg.view (Rect.unit off S.size inb).toLoadRect (h.unread X) = X := by
  rw [View.readAt_eq_ld, h.read_unread]
  exact View.ld_unit_zero hz inb X

/-- The zero offsets of a rank-2 buffer, however spelt. -/
theorem zero2 : (![0, 0] : Fin 2 → ℕ) = fun _ => 0 := by
  funext a; fin_cases a <;> rfl

end Cert.KernelIdeal.Hand

end
-- ==== Proof.Payloads.lean ====
/-
  The body's arithmetic read at an entry, at the ideal values: each matrix product started from the zero accumulator is
  the plain sum over the contraction position of the operands' products; a change of float format and a shape cast to
  the same shape are the identity; a column slice reads the product at the shifted column.
-/
import proofs.«120233_g65807488909795_cont_9to1_m_465_11_alg».proof.Proof.Gen.KernelIdeal.Skeleton
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! The row-block product's operand positions, axis by axis: the left operand is read at the result's row and the
    contraction position, the right operand at the contraction position and the result's column. -/
private theorem lhs_row_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
private theorem lhs_row_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
private theorem rhs_row_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
private theorem rhs_row_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The row-block product: 512 rows of the matrix against all 4096 rows of the 128-column scratch. -/
theorem pay5_apply (v12 : Vec Ideal S512x4096 .bf16) (v13 : Vec Ideal S4096x128 .bf16) (p : Fin 512) (q : Fin 128) :
    k0_pay5 (F := Ideal) v12 v13 (ix2 p q) = ∑ k : Fin 4096, v12 (ix2 p k) * v13 (ix2 k q) := by
  unfold k0_pay5
  simp only [matmul]
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p q) ((ValueIdx.contrEquiv1 dot_S512x4096_S4096x128_S512x128_1_0_0_1_n_n 4096 rfl rfl).symm k) = ix2 p k := funext fun a => Fin.ext (by
    match a with
    | ⟨0, _⟩ => exact lhs_row_0 _ _
    | ⟨1, _⟩ => exact (lhs_row_1 _ _).trans hk)
  have er : dot_S512x4096_S4096x128_S512x128_1_0_0_1_n_n.rhsIdx (ix2 p q) ((ValueIdx.contrEquiv1 dot_S512x4096_S4096x128_S512x128_1_0_0_1_n_n 4096 rfl rfl).symm k) = ix2 k q := funext fun a => Fin.ext (by
    match a with
    | ⟨0, _⟩ => exact (rhs_row_0 _ _).trans hk
    | ⟨1, _⟩ => exact rhs_row_1 _ _)
  rw [el, er]

/-- Its left 64 columns. -/
theorem pay6_apply (v12 : Vec Ideal S512x4096 .bf16) (v13 : Vec Ideal S4096x128 .bf16) (p : Fin 512) (q : Fin 64) :
    k0_pay6 (F := Ideal) v12 v13 (ix2 p q) = ∑ k : Fin 4096, v12 (ix2 p k) * v13 (ix2 k ⟨q.val, by omega⟩) := by
  unfold k0_pay6
  rw [extractStridedSlice_apply ![0, 0] (k0_pay5 (F := Ideal) v12 v13) slices_S512x128_o0_0_S512x64 (ix2 p q)
    (ix2 p ⟨q.val, by omega⟩) (fun a => by
      match a with
      | ⟨0, _⟩ => exact (Nat.zero_add _).symm
      | ⟨1, _⟩ => exact (Nat.zero_add _).symm)]
  exact pay5_apply v12 v13 p ⟨q.val, by omega⟩

/-- Its right 64 columns. -/
theorem pay7_apply (v12 : Vec Ideal S512x4096 .bf16) (v13 : Vec Ideal S4096x128 .bf16) (p : Fin 512) (q : Fin 64) :
    k0_pay7 (F := Ideal) v12 v13 (ix2 p q) = ∑ k : Fin 4096, v12 (ix2 p k) * v13 (ix2 k ⟨64 + q.val, by omega⟩) := by
  unfold k0_pay7
  rw [shapeCast_self, truncf_apply,
    extractStridedSlice_apply ![0, 64] (k0_pay5 (F := Ideal) v12 v13) slices_S512x128_o0_64_S512x64 (ix2 p q)
    (ix2 p ⟨64 + q.val, by omega⟩) (fun a => by
      match a with
      | ⟨0, _⟩ => exact (Nat.zero_add _).symm
      | ⟨1, _⟩ => rfl)]
  exact pay5_apply v12 v13 p ⟨64 + q.val, by omega⟩

/-! The same four readings for the column-block product, whose contraction runs over 512 positions. -/
private theorem lhs_col_0 (i : S4096x64.Idx) (q : dot_S4096x512_S512x64_S4096x64_1_0_0_1_n_n.contr.Idx) :
    (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl
private theorem lhs_col_1 (i : S4096x64.Idx) (q : dot_S4096x512_S512x64_S4096x64_1_0_0_1_n_n.contr.Idx) :
    (dot_S4096x512_S512x64_S4096x64_1_0_0_1_n_n.lhsIdx i q 1).val = (q ⟨0, by decide⟩).val :=
  dot_S4096x512_S512x64_S4096x64_1_0_0_1_n_n.lhsIdx_val_of_single rfl i q
private theorem rhs_col_0 (i : S4096x64.Idx) (q : dot_S4096x512_S512x64_S4096x64_1_0_0_1_n_n.contr.Idx) :
    (dot_S4096x512_S512x64_S4096x64_1_0_0_1_n_n.rhsIdx i q 0).val = (q ⟨0, by decide⟩).val :=
  dot_S4096x512_S512x64_S4096x64_1_0_0_1_n_n.rhsIdx_val_of_single rfl i q
private theorem rhs_col_1 (i : S4096x64.Idx) (q : dot_S4096x512_S512x64_S4096x64_1_0_0_1_n_n.contr.Idx) :
    (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

/-- The column-block product added to what the output held. -/
theorem pay1_apply (v27 : FVec Ideal S4096x64 .f32) (v30 : Vec Ideal S4096x512 .bf16) (v33 : Vec Ideal S512x64 .bf16)
    (p : Fin 4096) (q : Fin 64) :
    k0_pay1 (F := Ideal) v27 v30 v33 (ix2 p q) = v27 (ix2 p q) + ∑ k : Fin 512, v30 (ix2 p k) * v33 (ix2 k q) := by
  unfold k0_pay1
  rw [addf_apply]
  refine congrArg (v27 (ix2 p q) + ·) ?_
  simp only [matmul]
  rw [Ideal.matmul_constant_zero_apply, ← Equiv.sum_comp (ValueIdx.contrEquiv1 dot_S4096x512_S512x64_S4096x64_1_0_0_1_n_n 512 rfl rfl).symm]
  refine Finset.sum_congr rfl fun k _ => ?_
  have hk := ValueIdx.contrEquiv1_symm_val dot_S4096x512_S512x64_S4096x64_1_0_0_1_n_n 512 rfl rfl k
  have el : dot_S4096x512_S512x64_S4096x64_1_0_0_1_n_n.lhsIdx (ix2 p q) ((ValueIdx.contrEquiv1 dot_S4096x512_S512x64_S4096x64_1_0_0_1_n_n 512 rfl rfl).symm k) = ix2 p k := funext fun a => Fin.ext (by
    match a with
    | ⟨0, _⟩ => exact lhs_col_0 _ _
    | ⟨1, _⟩ => exact (lhs_col_1 _ _).trans hk)
  have er : dot_S4096x512_S512x64_S4096x64_1_0_0_1_n_n.rhsIdx (ix2 p q) ((ValueIdx.contrEquiv1 dot_S4096x512_S512x64_S4096x64_1_0_0_1_n_n 512 rfl rfl).symm k) = ix2 k q := funext fun a => Fin.ext (by
    match a with
    | ⟨0, _⟩ => exact (rhs_col_0 _ _).trans hk
    | ⟨1, _⟩ => exact rhs_col_1 _ _)
  rw [el, er]

/-- The matrix block changes format only. -/
theorem pay4_apply (v3 : Vec Ideal S512x4096 .f32) (j : S512x4096.Idx) : k0_pay4 (F := Ideal) v3 j = v3 j := by
  unfold k0_pay4
  rw [shapeCast_self, truncf_apply]

/-- The zero fill. -/
theorem pay2_apply (j : S4096x64.Idx) : k0_pay2 (F := Ideal) j = 0 := by
  unfold k0_pay2
  rw [shapeCast_self, broadcast_apply]
  exact Ideal.ofBits_zero_bf16

/-- The features copied as they are. -/
theorem pay3_apply (v41 : Vec Ideal S4096x64 .bf16) (j : S4096x64.Idx) : k0_pay3 (F := Ideal) v41 j = v41 j := by
  unfold k0_pay3
  rw [shapeCast_self, shapeCast_self]

/-- The output read back as it is. -/
theorem pay8_apply (v26 : Vec Ideal S4096x64 .f32) (j : S4096x64.Idx) : k0_pay8 (F := Ideal) v26 j = v26 j := by
  unfold k0_pay8
  rw [shapeCast_self]

end Cert.KernelIdeal.Hand

end
-- ==== Proof.PointValueLater.lean ====
/-
  What one grid point leaves in the three buffers it writes, read entry by entry at the ideal values, at a point AFTER the first.

  Write `t` for the point, `a1` for the matrix's row block staged for it (row `p'` of the block is row `512·t + p'` of the
  matrix), `y`, `aS`, `hS` for what the output block, the cached matrix and the 128-column scratch held when the point
  began. A row is IN the point's block when it is `512·t + p'` for some `p' < 512`, and OUTSIDE it otherwise. Every
  store goes through a unit-stride rectangle, so an entry under the newest store that covers it reads that store's
  payload at its position inside the rectangle, and any other entry reads what was there before; a change of float
  format is the identity; each matrix product from the zero accumulator is the plain sum of products.
-/
import proofs.«120233_g65807488909795_cont_9to1_m_465_11_alg».proof.Proof.PointGeometry
import proofs.«120233_g65807488909795_cont_9to1_m_465_11_alg».proof.Proof.Payloads

set_option maxRecDepth 16384

noncomputable section

open scoped BigOperators

namespace Cert.KernelIdeal.Hand

open Idealize.ShloMosaic Idealize.ShloMosaic.TcCoe Idealize.ShloMosaic.ValueIdx
open Idealize.SL.Sem
open Cert.KernelIdeal Cert.KernelIdeal.Gen

variable (c : Dev nD) (t : Fin cfg0.N)
    (arg1 : Memref sig .tc .vmem S4096x64 .bf16) (harg1 : arg1.IsWhole)
    (arg2 : Memref sig .tc .vmem S512x4096 .f32) (harg2 : arg2.IsWhole)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (x0 : Vec Ideal S4096x64 .bf16) (a1 : Vec Ideal S512x4096 .f32) (y : Vec Ideal S4096x64 .f32)
    (aS : Vec Ideal S4096x4096 .bf16) (hS : Vec Ideal S4096x128 .bf16)

variable (hc : ¬ isFirst (grid0.coords t))

/-- The output block after the point. -/
abbrev outLater : Vec Ideal S4096x64 .f32 :=
  arg3.view.read (Elt Ideal) (arg3.view.writes (Elt Ideal) (harg3.unread y)
    (runLater (F := Ideal) c (grid0.coords t) arg1 harg1 arg2 harg2 arg3 harg3 arg4 harg4 arg5 harg5 hc x0 a1 y aS hS).1)
/-- The cached matrix after the point. -/
abbrev adjLater : Vec Ideal S4096x4096 .bf16 :=
  arg4.view.read (Elt Ideal) (arg4.view.writes (Elt Ideal) (harg4.unread aS)
    (runLater (F := Ideal) c (grid0.coords t) arg1 harg1 arg2 harg2 arg3 harg3 arg4 harg4 arg5 harg5 hc x0 a1 y aS hS).2.1)
/-- The 128-column scratch after the point. -/
abbrev hxLater : Vec Ideal S4096x128 .bf16 :=
  arg5.view.read (Elt Ideal) (arg5.view.writes (Elt Ideal) (harg5.unread hS)
    (runLater (F := Ideal) c (grid0.coords t) arg1 harg1 arg2 harg2 arg3 harg3 arg4 harg4 arg5 harg5 hc x0 a1 y aS hS).2.2.1)

/-- A load through a unit-stride rectangle reads, at a position, the buffer at the offsets plus the position. -/
private theorem readAt_unit_apply {S : Shape} {e : EltTy} (arg : Memref sig .tc .vmem S e)
    {off off' size : Fin S.rank → ℕ} (inb : ∀ a, off a + size a ≤ S.size a) (f : arg.view.ty.Contents (Elt Ideal))
    (x : (Rect.unit off size inb).shape.Idx) (z : S.Idx) (heq : off = off') (hx : ∀ a, (z a).val = off' a + (x a).val) :
    View.readAt (Elt Ideal) arg.view (Rect.unit off size inb).toLoadRect f x = arg.view.read (Elt Ideal) f z := by
  subst heq
  rw [View.readAt_apply]
  refine congrArg _ (funext fun a => Fin.ext ?_)
  show off a + 1 * (x a).val = (z a).val
  rw [hx a, Nat.one_mul]

/-- A load of the whole buffer reads the buffer. -/
private theorem readAt_whole {S : Shape} {e : EltTy} (arg : Memref sig .tc .vmem S e) (f : arg.view.ty.Contents (Elt Ideal))
    {off : Fin S.rank → ℕ} (hz : off = fun _ => 0) (inb : ∀ a, off a + S.size a ≤ S.size a) :
    View.readAt (Elt Ideal) arg.view (Rect.unit off S.size inb).toLoadRect f = arg.view.read (Elt Ideal) f := by
  rw [View.readAt_eq_ld]
  exact View.ld_unit_zero hz inb _

private theorem pay4_eq (v : Vec Ideal S512x4096 .f32) : k0_pay4 (F := Ideal) v = v := funext (pay4_apply v)
private theorem pay8_eq (v : Vec Ideal S4096x64 .f32) : k0_pay8 (F := Ideal) v = v := funext (pay8_apply v)

/-- The cached matrix's one piece: the staged block at the block's rows. -/
private theorem adjPieces : (runLater (F := Ideal) c (grid0.coords t) arg1 harg1 arg2 harg2 arg3 harg3 arg4 harg4 arg5 harg5 hc x0 a1 y aS hS).2.1 = [(⟨(Rect.unit (s := S4096x4096) (k0_off1 (grid0.coords t)) S512x4096.size (k0_off1_inb (grid0.coords t))), a1⟩ : View.Piece (Elt Ideal) S4096x4096 .bf16)] := by
  show [(⟨(Rect.unit (s := S4096x4096) (k0_off1 (grid0.coords t)) S512x4096.size (k0_off1_inb (grid0.coords t))), k0_pay4 (F := Ideal) (View.readAt (Elt Ideal) arg2.view (Rect.unit (s := S512x4096) ![0, 0] S512x4096.size inb_S512x4096_S512x4096_0_0).toLoadRect (harg2.unread a1))⟩ : View.Piece (Elt Ideal) S4096x4096 .bf16)] = _
  rw [readAt_whole_unread arg2 harg2 a1 zero2 inb_S512x4096_S512x4096_0_0, pay4_eq]

/-- The scratch's one piece: the right half of the product, at the block's rows, left columns. -/
private theorem hxPieces : (runLater (F := Ideal) c (grid0.coords t) arg1 harg1 arg2 harg2 arg3 harg3 arg4 harg4 arg5 harg5 hc x0 a1 y aS hS).2.2.1 = [(⟨(Rect.unit (s := S4096x128) (k0_off3 (grid0.coords t)) S512x64.size (k0_off3_inb (grid0.coords t))), k0_pay7 (F := Ideal) a1 hS⟩ : View.Piece (Elt Ideal) S4096x128 .bf16)] := by
  show [(⟨(Rect.unit (s := S4096x128) (k0_off3 (grid0.coords t)) S512x64.size (k0_off3_inb (grid0.coords t))), k0_pay7 (F := Ideal) (arg4.view.readCov [(⟨(Rect.unit (s := S4096x4096) (k0_off1 (grid0.coords t)) S512x4096.size (k0_off1_inb (grid0.coords t))), k0_pay4 (F := Ideal) (View.readAt (Elt Ideal) arg2.view (Rect.unit (s := S512x4096) ![0, 0] S512x4096.size inb_S512x4096_S512x4096_0_0).toLoadRect (harg2.unread a1))⟩ : View.Piece (Elt Ideal) S4096x4096 .bf16)] (Rect.unit (s := S4096x4096) (k0_off1 (grid0.coords t)) S512x4096.size (k0_off1_inb (grid0.coords t))).toLoadRect) (View.readAt (Elt Ideal) arg5.view (Rect.unit (s := S4096x128) ![0, 0] S4096x128.size inb_S4096x128_S4096x128_0_0).toLoadRect (harg5.unread hS))⟩ : View.Piece (Elt Ideal) S4096x128 .bf16)] = _
  rw [View.readCov_cons_toLoadRect, readAt_whole_unread arg2 harg2 a1 zero2 inb_S512x4096_S512x4096_0_0, pay4_eq,
    readAt_whole_unread arg5 harg5 hS zero2 inb_S4096x128_S4096x128_0_0]

/-- The output's two pieces, newest first: the whole block updated, over the left half of the product at the block's rows. -/
private theorem outPieces : (runLater (F := Ideal) c (grid0.coords t) arg1 harg1 arg2 harg2 arg3 harg3 arg4 harg4 arg5 harg5 hc x0 a1 y aS hS).1 = [(⟨(Rect.unit (s := S4096x64) ![0, 0] S4096x64.size inb_S4096x64_S4096x64_0_0), k0_pay1 (F := Ideal) (arg3.view.read (Elt Ideal) (arg3.view.writes (Elt Ideal) (harg3.unread y) [(⟨(Rect.unit (s := S4096x64) (k0_off2 (grid0.coords t)) S512x64.size (k0_off2_inb (grid0.coords t))), k0_pay6 (F := Ideal) a1 hS⟩ : View.Piece (Elt Ideal) S4096x64 .f32)])) (View.readAt (Elt Ideal) arg4.view (Rect.unit (s := S4096x4096) (k0_off4 (grid0.coords t)) S4096x512.size (k0_off4_inb (grid0.coords t))).toLoadRect (arg4.view.writes (Elt Ideal) (harg4.unread aS) [(⟨(Rect.unit (s := S4096x4096) (k0_off1 (grid0.coords t)) S512x4096.size (k0_off1_inb (grid0.coords t))), a1⟩ : View.Piece (Elt Ideal) S4096x4096 .bf16)])) (k0_pay7 (F := Ideal) a1 hS)⟩ : View.Piece (Elt Ideal) S4096x64 .f32), (⟨(Rect.unit (s := S4096x64) (k0_off2 (grid0.coords t)) S512x64.size (k0_off2_inb (grid0.coords t))), k0_pay6 (F := Ideal) a1 hS⟩ : View.Piece (Elt Ideal) S4096x64 .f32)] := by
  show [(⟨(Rect.unit (s := S4096x64) ![0, 0] S4096x64.size inb_S4096x64_S4096x64_0_0), k0_pay1 (F := Ideal) (k0_pay8 (F := Ideal) (View.readAt (Elt Ideal) arg3.view (Rect.unit (s := S4096x64) ![0, 0] S4096x64.size inb_S4096x64_S4096x64_0_0).toLoadRect (arg3.view.writes (Elt Ideal) (harg3.unread y) [(⟨(Rect.unit (s := S4096x64) (k0_off2 (grid0.coords t)) S512x64.size (k0_off2_inb (grid0.coords t))), k0_pay6 (F := Ideal) (arg4.view.readCov [(⟨(Rect.unit (s := S4096x4096) (k0_off1 (grid0.coords t)) S512x4096.size (k0_off1_inb (grid0.coords t))), k0_pay4 (F := Ideal) (View.readAt (Elt Ideal) arg2.view (Rect.unit (s := S512x4096) ![0, 0] S512x4096.size inb_S512x4096_S512x4096_0_0).toLoadRect (harg2.unread a1))⟩ : View.Piece (Elt Ideal) S4096x4096 .bf16)] (Rect.unit (s := S4096x4096) (k0_off1 (grid0.coords t)) S512x4096.size (k0_off1_inb (grid0.coords t))).toLoadRect) (View.readAt (Elt Ideal) arg5.view (Rect.unit (s := S4096x128) ![0, 0] S4096x128.size inb_S4096x128_S4096x128_0_0).toLoadRect (harg5.unread hS))⟩ : View.Piece (Elt Ideal) S4096x64 .f32)]))) (View.readAt (Elt Ideal) arg4.view (Rect.unit (s := S4096x4096) (k0_off4 (grid0.coords t)) S4096x512.size (k0_off4_inb (grid0.coords t))).toLoadRect (arg4.view.writes (Elt Ideal) (harg4.unread aS) [(⟨(Rect.unit (s := S4096x4096) (k0_off1 (grid0.coords t)) S512x4096.size (k0_off1_inb (grid0.coords t))), k0_pay4 (F := Ideal) (View.readAt (Elt Ideal) arg2.view (Rect.unit (s := S512x4096) ![0, 0] S512x4096.size inb_S512x4096_S512x4096_0_0).toLoadRect (harg2.unread a1))⟩ : View.Piece (Elt Ideal) S4096x4096 .bf16)])) (arg5.view.readCov [(⟨(Rect.unit (s := S4096x128) (k0_off3 (grid0.coords t)) S512x64.size (k0_off3_inb (grid0.coords t))), k0_pay7 (F := Ideal) (arg4.view.readCov [(⟨(Rect.unit (s := S4096x4096) (k0_off1 (grid0.coords t)) S512x4096.size (k0_off1_inb (grid0.coords t))), k0_pay4 (F := Ideal) (View.readAt (Elt Ideal) arg2.view (Rect.unit (s := S512x4096) ![0, 0] S512x4096.size inb_S512x4096_S512x4096_0_0).toLoadRect (harg2.unread a1))⟩ : View.Piece (Elt Ideal) S4096x4096 .bf16)] (Rect.unit (s := S4096x4096) (k0_off1 (grid0.coords t)) S512x4096.size (k0_off1_inb (grid0.coords t))).toLoadRect) (View.readAt (Elt Ideal) arg5.view (Rect.unit (s := S4096x128) ![0, 0] S4096x128.size inb_S4096x128_S4096x128_0_0).toLoadRect (harg5.unread hS))⟩ : View.Piece (Elt Ideal) S4096x128 .bf16)] (Rect.unit (s := S4096x128) (k0_off3 (grid0.coords t)) S512x64.size (k0_off3_inb (grid0.coords t))).toLoadRect)⟩ : View.Piece (Elt Ideal) S4096x64 .f32), (⟨(Rect.unit (s := S4096x64) (k0_off2 (grid0.coords t)) S512x64.size (k0_off2_inb (grid0.coords t))), k0_pay6 (F := Ideal) (arg4.view.readCov [(⟨(Rect.unit (s := S4096x4096) (k0_off1 (grid0.coords t)) S512x4096.size (k0_off1_inb (grid0.coords t))), k0_pay4 (F := Ideal) (View.readAt (Elt Ideal) arg2.view (Rect.unit (s := S512x4096) ![0, 0] S512x4096.size inb_S512x4096_S512x4096_0_0).toLoadRect (harg2.unread a1))⟩ : View.Piece (Elt Ideal) S4096x4096 .bf16)] (Rect.unit (s := S4096x4096) (k0_off1 (grid0.coords t)) S512x4096.size (k0_off1_inb (grid0.coords t))).toLoadRect) (View.readAt (Elt Ideal) arg5.view (Rect.unit (s := S4096x128) ![0, 0] S4096x128.size inb_S4096x128_S4096x128_0_0).toLoadRect (harg5.unread hS))⟩ : View.Piece (Elt Ideal) S4096x64 .f32)] = _
  rw [View.readCov_cons_toLoadRect arg4.view, readAt_whole_unread arg2 harg2 a1 zero2 inb_S512x4096_S512x4096_0_0, pay4_eq,
    readAt_whole_unread arg5 harg5 hS zero2 inb_S4096x128_S4096x128_0_0, View.readCov_cons_toLoadRect arg5.view, pay8_eq,
    readAt_whole arg3 _ zero2 inb_S4096x64_S4096x64_0_0]

/-- A cached row in the point's block is the staged row. -/
theorem adjLater_in (p' : Fin 512) (k : Fin 4096) (hp : 512 * t.val + p'.val < 4096) :
    adjLater c t arg1 harg1 arg2 harg2 arg3 harg3 arg4 harg4 arg5 harg5 x0 a1 y aS hS hc (ix2 ⟨512 * t.val + p'.val, hp⟩ k)
      = a1 (ix2 p' k) := by
  unfold adjLater
  rw [adjPieces]
  exact View.read_writes_cons_unit_of_mem arg4.view (harg4.unread aS) (k0_off1_inb _) a1 [] (ix2 ⟨_, hp⟩ k) (ix2 p' k)
    (off1_eq t) (Fin.forall_fin_two.mpr ⟨rfl, (Nat.zero_add _).symm⟩)

/-- A cached row outside it is as it was. -/
theorem adjLater_out (p : Fin 4096) (k : Fin 4096) (hp : p.val < 512 * t.val ∨ 512 * t.val + 512 ≤ p.val) :
    adjLater c t arg1 harg1 arg2 harg2 arg3 harg3 arg4 harg4 arg5 harg5 x0 a1 y aS hS hc (ix2 p k) = aS (ix2 p k) := by
  unfold adjLater
  rw [adjPieces, View.read_writes_cons_unit_of_not_mem arg4.view (harg4.unread aS) (k0_off1_inb _) a1 [] (ix2 p k)
    (off1_eq t) 0 hp, View.writes_nil, harg4.read_unread]

/-- A scratch row in the block, left half: the staged row against the scratch's RIGHT half as it was. -/
theorem hxLater_in (p' : Fin 512) (q : Fin 64) (hp : 512 * t.val + p'.val < 4096) :
    hxLater c t arg1 harg1 arg2 harg2 arg3 harg3 arg4 harg4 arg5 harg5 x0 a1 y aS hS hc
        (ix2 ⟨512 * t.val + p'.val, hp⟩ ⟨q.val, by omega⟩)
      = ∑ k : Fin 4096, a1 (ix2 p' k) * hS (ix2 k ⟨64 + q.val, by omega⟩) := by
  unfold hxLater
  rw [hxPieces]
  exact (View.read_writes_cons_unit_of_mem arg5.view (harg5.unread hS) (k0_off3_inb _) (k0_pay7 (F := Ideal) a1 hS) []
    (ix2 ⟨_, hp⟩ ⟨q.val, by omega⟩) (ix2 p' q) (off3_eq t) (Fin.forall_fin_two.mpr ⟨rfl, (Nat.zero_add _).symm⟩)).trans
    (pay7_apply a1 hS p' q)

/-- A scratch row outside the block is as it was, -/
theorem hxLater_out_row (p : Fin 4096) (cc : Fin 128) (hp : p.val < 512 * t.val ∨ 512 * t.val + 512 ≤ p.val) :
    hxLater c t arg1 harg1 arg2 harg2 arg3 harg3 arg4 harg4 arg5 harg5 x0 a1 y aS hS hc (ix2 p cc) = hS (ix2 p cc) := by
  unfold hxLater
  rw [hxPieces, View.read_writes_cons_unit_of_not_mem arg5.view (harg5.unread hS) (k0_off3_inb _) (k0_pay7 (F := Ideal) a1 hS) []
    (ix2 p cc) (off3_eq t) 0 hp, View.writes_nil, harg5.read_unread]

/-- and so is the right half of every row. -/
theorem hxLater_right (p : Fin 4096) (q : Fin 64) :
    hxLater c t arg1 harg1 arg2 harg2 arg3 harg3 arg4 harg4 arg5 harg5 x0 a1 y aS hS hc (ix2 p ⟨64 + q.val, by omega⟩)
      = hS (ix2 p ⟨64 + q.val, by omega⟩) := by
  unfold hxLater
  rw [hxPieces, View.read_writes_cons_unit_of_not_mem arg5.view (harg5.unread hS) (k0_off3_inb _) (k0_pay7 (F := Ideal) a1 hS) []
    (ix2 p ⟨64 + q.val, by omega⟩) (off3_eq t) 1 (Or.inr (by show 0 + 64 ≤ 64 + q.val; omega)), View.writes_nil, harg5.read_unread]

/-- The output as the row-block store left it, at a row in the block: the left half of the product. -/
private theorem outMid_in (p' : Fin 512) (q : Fin 64) (hp : 512 * t.val + p'.val < 4096) :
    (arg3.view.read (Elt Ideal) (arg3.view.writes (Elt Ideal) (harg3.unread y) [(⟨(Rect.unit (s := S4096x64) (k0_off2 (grid0.coords t)) S512x64.size (k0_off2_inb (grid0.coords t))), k0_pay6 (F := Ideal) a1 hS⟩ : View.Piece (Elt Ideal) S4096x64 .f32)])) (ix2 ⟨512 * t.val + p'.val, hp⟩ q) = ∑ k : Fin 4096, a1 (ix2 p' k) * hS (ix2 k ⟨q.val, by omega⟩) :=
  (View.read_writes_cons_unit_of_mem arg3.view (harg3.unread y) (k0_off2_inb _) (k0_pay6 (F := Ideal) a1 hS) []
    (ix2 ⟨_, hp⟩ q) (ix2 p' q) (off2_eq t) (Fin.forall_fin_two.mpr ⟨rfl, (Nat.zero_add _).symm⟩)).trans
    (pay6_apply a1 hS p' q)

/-- At a row outside the block it is what the output held. -/
private theorem outMid_out (p : Fin 4096) (q : Fin 64) (hp : p.val < 512 * t.val ∨ 512 * t.val + 512 ≤ p.val) :
    (arg3.view.read (Elt Ideal) (arg3.view.writes (Elt Ideal) (harg3.unread y) [(⟨(Rect.unit (s := S4096x64) (k0_off2 (grid0.coords t)) S512x64.size (k0_off2_inb (grid0.coords t))), k0_pay6 (F := Ideal) a1 hS⟩ : View.Piece (Elt Ideal) S4096x64 .f32)])) (ix2 p q) = y (ix2 p q) := by
  rw [View.read_writes_cons_unit_of_not_mem arg3.view (harg3.unread y) (k0_off2_inb _) (k0_pay6 (F := Ideal) a1 hS) []
    (ix2 p q) (off2_eq t) 0 hp, View.writes_nil, harg3.read_unread]

/-- The cached matrix's column block read back after the row block was cached, at a row in the block: the staged row. -/
private theorem colBlock_in (p' : Fin 512) (k' : Fin 512) (hp : 512 * t.val + p'.val < 4096) (hk : 512 * t.val + k'.val < 4096) :
    (View.readAt (Elt Ideal) arg4.view (Rect.unit (s := S4096x4096) (k0_off4 (grid0.coords t)) S4096x512.size (k0_off4_inb (grid0.coords t))).toLoadRect (arg4.view.writes (Elt Ideal) (harg4.unread aS) [(⟨(Rect.unit (s := S4096x4096) (k0_off1 (grid0.coords t)) S512x4096.size (k0_off1_inb (grid0.coords t))), a1⟩ : View.Piece (Elt Ideal) S4096x4096 .bf16)])) (ix2 ⟨512 * t.val + p'.val, hp⟩ k') = a1 (ix2 p' ⟨512 * t.val + k'.val, hk⟩) := by
  rw [readAt_unit_apply arg4 (k0_off4_inb _) _ (ix2 ⟨512 * t.val + p'.val, hp⟩ k')
    (ix2 ⟨512 * t.val + p'.val, hp⟩ ⟨512 * t.val + k'.val, hk⟩) (off4_eq t)
    (Fin.forall_fin_two.mpr ⟨(Nat.zero_add _).symm, rfl⟩)]
  exact View.read_writes_cons_unit_of_mem arg4.view (harg4.unread aS) (k0_off1_inb _) a1 []
    (ix2 ⟨_, hp⟩ ⟨_, hk⟩) (ix2 p' ⟨_, hk⟩) (off1_eq t) (Fin.forall_fin_two.mpr ⟨rfl, (Nat.zero_add _).symm⟩)

/-- At a row outside the block: the cached row as it was. -/
private theorem colBlock_out (p : Fin 4096) (k' : Fin 512) (hp : p.val < 512 * t.val ∨ 512 * t.val + 512 ≤ p.val)
    (hk : 512 * t.val + k'.val < 4096) :
    (View.readAt (Elt Ideal) arg4.view (Rect.unit (s := S4096x4096) (k0_off4 (grid0.coords t)) S4096x512.size (k0_off4_inb (grid0.coords t))).toLoadRect (arg4.view.writes (Elt Ideal) (harg4.unread aS) [(⟨(Rect.unit (s := S4096x4096) (k0_off1 (grid0.coords t)) S512x4096.size (k0_off1_inb (grid0.coords t))), a1⟩ : View.Piece (Elt Ideal) S4096x4096 .bf16)])) (ix2 p k') = aS (ix2 p ⟨512 * t.val + k'.val, hk⟩) := by
  rw [readAt_unit_apply arg4 (k0_off4_inb _) _ (ix2 p k') (ix2 p ⟨512 * t.val + k'.val, hk⟩) (off4_eq t)
    (Fin.forall_fin_two.mpr ⟨(Nat.zero_add _).symm, rfl⟩),
    View.read_writes_cons_unit_of_not_mem arg4.view (harg4.unread aS) (k0_off1_inb _) a1 [] (ix2 p ⟨_, hk⟩)
    (off1_eq t) 0 hp, View.writes_nil, harg4.read_unread]

/-- An output row in the block: the staged row against the scratch's left half as it was, plus the staged row's columns
    of this block against the block's new scratch rows. -/
theorem outLater_in (p' : Fin 512) (q : Fin 64) (hp : 512 * t.val + p'.val < 4096) :
    outLater c t arg1 harg1 arg2 harg2 arg3 harg3 arg4 harg4 arg5 harg5 x0 a1 y aS hS hc (ix2 ⟨512 * t.val + p'.val, hp⟩ q)
      = (∑ k : Fin 4096, a1 (ix2 p' k) * hS (ix2 k ⟨q.val, by omega⟩))
        + ∑ k' : Fin 512, a1 (ix2 p' ⟨512 * t.val + k'.val, by have := point_lt t; omega⟩)
            * ∑ k : Fin 4096, a1 (ix2 k' k) * hS (ix2 k ⟨64 + q.val, by omega⟩) := by
  unfold outLater
  rw [outPieces]
  refine (View.read_writes_cons_unit_of_mem arg3.view (harg3.unread y) inb_S4096x64_S4096x64_0_0 _ _
    (ix2 ⟨_, hp⟩ q) (ix2 ⟨_, hp⟩ q) rfl (Fin.forall_fin_two.mpr ⟨(Nat.zero_add _).symm, (Nat.zero_add _).symm⟩)).trans ?_
  rw [pay1_apply, outMid_in]
  refine congrArg (_ + ·) (Finset.sum_congr rfl fun k' _ => ?_)
  rw [colBlock_in (hk := by have := point_lt t; omega), pay7_apply]

/-- An output row outside the block: what it held, plus the cached row's columns of this block (as the cache held them)
    against the block's new scratch rows. -/
theorem outLater_out (p : Fin 4096) (q : Fin 64) (hp : p.val < 512 * t.val ∨ 512 * t.val + 512 ≤ p.val) :
    outLater c t arg1 harg1 arg2 harg2 arg3 harg3 arg4 harg4 arg5 harg5 x0 a1 y aS hS hc (ix2 p q)
      = y (ix2 p q)
        + ∑ k' : Fin 512, aS (ix2 p ⟨512 * t.val + k'.val, by have := point_lt t; omega⟩)
            * ∑ k : Fin 4096, a1 (ix2 k' k) * hS (ix2 k ⟨64 + q.val, by omega⟩) := by
  unfold outLater
  rw [outPieces]
  refine (View.read_writes_cons_unit_of_mem arg3.view (harg3.unread y) inb_S4096x64_S4096x64_0_0 _ _
    (ix2 p q) (ix2 p q) rfl (Fin.forall_fin_two.mpr ⟨(Nat.zero_add _).symm, (Nat.zero_add _).symm⟩)).trans ?_
  rw [pay1_apply, outMid_out (hp := hp)]
  refine congrArg (_ + ·) (Finset.sum_congr rfl fun k' _ => ?_)
  rw [colBlock_out (hp := hp) (hk := by have := point_lt t; omega), pay7_apply]

end Cert.KernelIdeal.Hand

end
-- ==== Proof.PointValueFirst.lean ====
/-
  What one grid point leaves in the three buffers it writes, read entry by entry at the ideal values, at the FIRST point, which begins by filling the 128-column scratch: zeros on the left, the staged features `x0` on the right.

  Write `t` for the point, `a1` for the matrix's row block staged for it (row `p'` of the block is row `512·t + p'` of the
  matrix), `y`, `aS`, `hS` for what the output block, the cached matrix and the 128-column scratch held when the point
  began. A row is IN the point's block when it is `512·t + p'` for some `p' < 512`, and OUTSIDE it otherwise. Every
  store goes through a unit-stride rectangle, so an entry under the newest store that covers it reads that store's
  payload at its position inside the rectangle, and any other entry reads what was there before; a change of float
  format is the identity; each matrix product from the zero accumulator is the plain sum of products.
-/
import proofs.«120233_g65807488909795_cont_9to1_m_465_11_alg».proof.Proof.PointGeometry
import proofs.«120233_g65807488909795_cont_9to1_m_465_11_alg».proof.Proof.Payloads

set_option maxRecDepth 16384

noncomputable section

open scoped BigOperators

namespace Cert.KernelIdeal.Hand

open Idealize.ShloMosaic Idealize.ShloMosaic.TcCoe Idealize.ShloMosaic.ValueIdx Idealize.ShloMosaic.Tactic
open Idealize.SL.Sem
open Cert.KernelIdeal Cert.KernelIdeal.Gen

variable (c : Dev nD) (t : Fin cfg0.N)
    (arg1 : Memref sig .tc .vmem S4096x64 .bf16) (harg1 : arg1.IsWhole)
    (arg2 : Memref sig .tc .vmem S512x4096 .f32) (harg2 : arg2.IsWhole)
    (arg3 : Memref sig .tc .vmem S4096x64 .f32) (harg3 : arg3.IsWhole)
    (arg4 : Memref sig .tc .vmem S4096x4096 .bf16) (harg4 : arg4.IsWhole)
    (arg5 : Memref sig .tc .vmem S4096x128 .bf16) (harg5 : arg5.IsWhole)
    (x0 : Vec Ideal S4096x64 .bf16) (a1 : Vec Ideal S512x4096 .f32) (y : Vec Ideal S4096x64 .f32)
    (aS : Vec Ideal S4096x4096 .bf16) (hS : Vec Ideal S4096x128 .bf16)

variable (hc : isFirst (grid0.coords t))

/-- The output block after the point. -/
abbrev outFirst : Vec Ideal S4096x64 .f32 :=
  arg3.view.read (Elt Ideal) (arg3.view.writes (Elt Ideal) (harg3.unread y)
    (runFirst (F := Ideal) c (grid0.coords t) arg1 harg1 arg2 harg2 arg3 harg3 arg4 harg4 arg5 harg5 hc x0 a1 y aS hS).1)
/-- The cached matrix after the point. -/
abbrev adjFirst : Vec Ideal S4096x4096 .bf16 :=
  arg4.view.read (Elt Ideal) (arg4.view.writes (Elt Ideal) (harg4.unread aS)
    (runFirst (F := Ideal) c (grid0.coords t) arg1 harg1 arg2 harg2 arg3 harg3 arg4 harg4 arg5 harg5 hc x0 a1 y aS hS).2.1)
/-- The 128-column scratch after the point. -/
abbrev hxFirst : Vec Ideal S4096x128 .bf16 :=
  arg5.view.read (Elt Ideal) (arg5.view.writes (Elt Ideal) (harg5.unread hS)
    (runFirst (F := Ideal) c (grid0.coords t) arg1 harg1 arg2 harg2 arg3 harg3 arg4 harg4 arg5 harg5 hc x0 a1 y aS hS).2.2.1)

/-- A load through a unit-stride rectangle reads, at position `x`, the contents at the index `off + x`. -/
private theorem readAt_unit_at {κ : Kind} {sp : Space} {S : Shape} {e : EltTy} {Val : EltTy → Type}
    (v : View sig κ sp S e) (f : v.ty.Contents Val)
    {off off' size : Fin S.rank → ℕ} (inb : ∀ a, off a + size a ≤ S.size a)
    (x : (Rect.unit off size inb).shape.Idx) (y : S.Idx) (heq : off = off')
    (hy : ∀ a, (y a).val = off' a + (x a).val) :
    View.readAt Val v (Rect.unit off size inb).toLoadRect f x = v.read Val f y := by
  subst heq
  rw [View.readAt_apply]
  refine congrArg _ (funext fun a => Fin.ext ?_)
  show off a + 1 * (x a).val = (y a).val
  rw [hy a, Nat.one_mul]

/-- The staged row block, loaded whole and changed in format, is the staged row block. -/
private theorem stagedA_apply (inb0 : ∀ a, (![0, 0] : Fin 2 → ℕ) a + S512x4096.size a ≤ S512x4096.size a) (j : S512x4096.Idx) :
    k0_pay4 (F := Ideal) (View.readAt (Elt Ideal) arg2.view (Rect.unit ![0, 0] S512x4096.size inb0).toLoadRect (harg2.unread a1)) j
      = a1 j := by
  rw [pay4_apply, readAt_whole_unread arg2 harg2 a1 zero2 inb0]

/-- The staged features, loaded whole and copied, are the staged features. -/
private theorem stagedX_apply (inb0 : ∀ a, (![0, 0] : Fin 2 → ℕ) a + S4096x64.size a ≤ S4096x64.size a) (j : S4096x64.Idx) :
    k0_pay3 (F := Ideal) (View.readAt (Elt Ideal) arg1.view (Rect.unit ![0, 0] S4096x64.size inb0).toLoadRect (harg1.unread x0)) j
      = x0 j := by
  rw [pay3_apply, readAt_whole_unread arg1 harg1 x0 zero2 inb0]

/-- Both coordinates of a rank-2 position, given one at a time. -/
private theorem both {P : Fin 2 → Prop} (h0 : P 0) (h1 : P 1) : ∀ a, P a := Fin.forall_fin_two.mpr ⟨h0, h1⟩

/-- The 128-column scratch as the first point's product sees it — after the two half-fills — holds the features in
    its right half, -/
private theorem filled_right (k : Fin 4096) (q : Fin 64)
    (inbR : ∀ a, (![0, 64] : Fin 2 → ℕ) a + S4096x64.size a ≤ S4096x128.size a)
    (inbL : ∀ a, (![0, 0] : Fin 2 → ℕ) a + S4096x64.size a ≤ S4096x128.size a)
    (inbW : ∀ a, (![0, 0] : Fin 2 → ℕ) a + S4096x128.size a ≤ S4096x128.size a)
    (inb0 : ∀ a, (![0, 0] : Fin 2 → ℕ) a + S4096x64.size a ≤ S4096x64.size a) :
    View.readCov (Val := Elt Ideal) arg5.view
        [⟨Rect.unit (s := S4096x128) ![0, 64] S4096x64.size inbR,
            k0_pay3 (F := Ideal) (View.readAt (Elt Ideal) arg1.view (Rect.unit ![0, 0] S4096x64.size inb0).toLoadRect (harg1.unread x0))⟩,
          ⟨Rect.unit (s := S4096x128) ![0, 0] S4096x64.size inbL, k0_pay2 (F := Ideal)⟩]
        (Rect.unit (s := S4096x128) ![0, 0] S4096x128.size inbW).toLoadRect (ix2 k ⟨64 + q.val, by omega⟩)
      = x0 (ix2 k q) := by
  unfold View.readCov
  refine (readAt_unit_at arg5.view _ inbW (ix2 k ⟨64 + q.val, by omega⟩) (ix2 k ⟨64 + q.val, by omega⟩) rfl
    (both (Nat.zero_add _).symm (Nat.zero_add _).symm)).trans ?_
  refine (View.read_writes_cons_unit_of_mem arg5.view _ inbR _ _ (ix2 k ⟨64 + q.val, by omega⟩) (ix2 k q) rfl
    (both (Nat.zero_add _).symm rfl)).trans ?_
  exact stagedX_apply arg1 harg1 x0 inb0 _

/-- and zero in its left half. -/
private theorem filled_left (k : Fin 4096) (q : Fin 64)
    (inbR : ∀ a, (![0, 64] : Fin 2 → ℕ) a + S4096x64.size a ≤ S4096x128.size a)
    (inbL : ∀ a, (![0, 0] : Fin 2 → ℕ) a + S4096x64.size a ≤ S4096x128.size a)
    (inbW : ∀ a, (![0, 0] : Fin 2 → ℕ) a + S4096x128.size a ≤ S4096x128.size a)
    (inb0 : ∀ a, (![0, 0] : Fin 2 → ℕ) a + S4096x64.size a ≤ S4096x64.size a) :
    View.readCov (Val := Elt Ideal) arg5.view
        [⟨Rect.unit (s := S4096x128) ![0, 64] S4096x64.size inbR,
            k0_pay3 (F := Ideal) (View.readAt (Elt Ideal) arg1.view (Rect.unit ![0, 0] S4096x64.size inb0).toLoadRect (harg1.unread x0))⟩,
          ⟨Rect.unit (s := S4096x128) ![0, 0] S4096x64.size inbL, k0_pay2 (F := Ideal)⟩]
        (Rect.unit (s := S4096x128) ![0, 0] S4096x128.size inbW).toLoadRect (ix2 k ⟨q.val, by omega⟩)
      = 0 := by
  unfold View.readCov
  refine (readAt_unit_at arg5.view _ inbW (ix2 k ⟨q.val, by omega⟩) (ix2 k ⟨q.val, by omega⟩) rfl
    (both (Nat.zero_add _).symm (Nat.zero_add _).symm)).trans ?_
  refine (View.read_writes_cons_unit_of_not_mem arg5.view _ inbR _ _ (ix2 k ⟨q.val, by omega⟩) rfl 1 (Or.inl q.isLt)).trans ?_
  refine (View.read_writes_cons_unit_of_mem arg5.view _ inbL _ _ (ix2 k ⟨q.val, by omega⟩) (ix2 k q) rfl
    (both (Nat.zero_add _).symm (Nat.zero_add _).symm)).trans ?_
  exact pay2_apply _

/-- The block's new scratch rows: the right half of the product of the cached row block (read back: the staged row
    block) with the filled scratch, so the staged rows against the features. -/
private theorem newRows_apply (p' : Fin 512) (q : Fin 64) (off1 : Fin 2 → ℕ)
    (inb1 : ∀ a, off1 a + S512x4096.size a ≤ S4096x4096.size a)
    (inb0A : ∀ a, (![0, 0] : Fin 2 → ℕ) a + S512x4096.size a ≤ S512x4096.size a)
    (inbR : ∀ a, (![0, 64] : Fin 2 → ℕ) a + S4096x64.size a ≤ S4096x128.size a)
    (inbL : ∀ a, (![0, 0] : Fin 2 → ℕ) a + S4096x64.size a ≤ S4096x128.size a)
    (inbW : ∀ a, (![0, 0] : Fin 2 → ℕ) a + S4096x128.size a ≤ S4096x128.size a)
    (inb0 : ∀ a, (![0, 0] : Fin 2 → ℕ) a + S4096x64.size a ≤ S4096x64.size a) :
    k0_pay7 (F := Ideal)
        (View.readCov (Val := Elt Ideal) arg4.view
          [⟨Rect.unit (s := S4096x4096) off1 S512x4096.size inb1,
              k0_pay4 (F := Ideal) (View.readAt (Elt Ideal) arg2.view (Rect.unit ![0, 0] S512x4096.size inb0A).toLoadRect (harg2.unread a1))⟩]
          (Rect.unit (s := S4096x4096) off1 S512x4096.size inb1).toLoadRect)
        (View.readCov (Val := Elt Ideal) arg5.view
          [⟨Rect.unit (s := S4096x128) ![0, 64] S4096x64.size inbR,
              k0_pay3 (F := Ideal) (View.readAt (Elt Ideal) arg1.view (Rect.unit ![0, 0] S4096x64.size inb0).toLoadRect (harg1.unread x0))⟩,
            ⟨Rect.unit (s := S4096x128) ![0, 0] S4096x64.size inbL, k0_pay2 (F := Ideal)⟩]
          (Rect.unit (s := S4096x128) ![0, 0] S4096x128.size inbW).toLoadRect)
        (ix2 p' q)
      = ∑ k : Fin 4096, a1 (ix2 p' k) * x0 (ix2 k q) := by
  refine (pay7_apply _ _ p' q).trans ?_
  refine Finset.sum_congr rfl fun k _ => ?_
  refine congrArg₂ (· * ·) ?_ ?_
  · rw [View.readCov_cons_toLoadRect]
    exact stagedA_apply arg2 harg2 a1 inb0A _
  · exact filled_right arg1 harg1 arg5 x0 k q inbR inbL inbW inb0

/-- The block's first output rows: the left half of the same product, so the staged rows against zeros. -/
private theorem zeroRows_apply (p' : Fin 512) (q : Fin 64) (off1 : Fin 2 → ℕ)
    (inb1 : ∀ a, off1 a + S512x4096.size a ≤ S4096x4096.size a)
    (inb0A : ∀ a, (![0, 0] : Fin 2 → ℕ) a + S512x4096.size a ≤ S512x4096.size a)
    (inbR : ∀ a, (![0, 64] : Fin 2 → ℕ) a + S4096x64.size a ≤ S4096x128.size a)
    (inbL : ∀ a, (![0, 0] : Fin 2 → ℕ) a + S4096x64.size a ≤ S4096x128.size a)
    (inbW : ∀ a, (![0, 0] : Fin 2 → ℕ) a + S4096x128.size a ≤ S4096x128.size a)
    (inb0 : ∀ a, (![0, 0] : Fin 2 → ℕ) a + S4096x64.size a ≤ S4096x64.size a) :
    k0_pay6 (F := Ideal)
        (View.readCov (Val := Elt Ideal) arg4.view
          [⟨Rect.unit (s := S4096x4096) off1 S512x4096.size inb1,
              k0_pay4 (F := Ideal) (View.readAt (Elt Ideal) arg2.view (Rect.unit ![0, 0] S512x4096.size inb0A).toLoadRect (harg2.unread a1))⟩]
          (Rect.unit (s := S4096x4096) off1 S512x4096.size inb1).toLoadRect)
        (View.readCov (Val := Elt Ideal) arg5.view
          [⟨Rect.unit (s := S4096x128) ![0, 64] S4096x64.size inbR,
              k0_pay3 (F := Ideal) (View.readAt (Elt Ideal) arg1.view (Rect.unit ![0, 0] S4096x64.size inb0).toLoadRect (harg1.unread x0))⟩,
            ⟨Rect.unit (s := S4096x128) ![0, 0] S4096x64.size inbL, k0_pay2 (F := Ideal)⟩]
          (Rect.unit (s := S4096x128) ![0, 0] S4096x128.size inbW).toLoadRect)
        (ix2 p' q)
      = 0 := by
  refine (pay6_apply _ _ p' q).trans ?_
  refine Finset.sum_eq_zero fun k _ => ?_
  rw [filled_left arg1 harg1 arg5 x0 k q inbR inbL inbW inb0]
  exact mul_zero _

/-- A cached row in the point's block is the staged row. -/
theorem adjFirst_in (p' : Fin 512) (k : Fin 4096) (hp : 512 * t.val + p'.val < 4096) :
    adjFirst c t arg1 harg1 arg2 harg2 arg3 harg3 arg4 harg4 arg5 harg5 x0 a1 y aS hS hc (ix2 ⟨512 * t.val + p'.val, hp⟩ k)
      = a1 (ix2 p' k) := by
  unfold adjFirst runFirst; dsimp only; sl_unfold_words
  refine (View.read_writes_cons_unit_of_mem arg4.view _ _ _ _ (ix2 ⟨512 * t.val + p'.val, hp⟩ k) (ix2 p' k) (off1_eq t) ?_).trans ?_
  · intro a
    match a with
    | ⟨0, _⟩ => rfl
    | ⟨1, _⟩ => exact (Nat.zero_add _).symm
  · exact stagedA_apply arg2 harg2 a1 _ _

/-- A scratch row in the block, left half: the staged row against the features. -/
theorem hxFirst_in (p' : Fin 512) (q : Fin 64) (hp : 512 * t.val + p'.val < 4096) :
    hxFirst c t arg1 harg1 arg2 harg2 arg3 harg3 arg4 harg4 arg5 harg5 x0 a1 y aS hS hc
        (ix2 ⟨512 * t.val + p'.val, hp⟩ ⟨q.val, by omega⟩)
      = ∑ k : Fin 4096, a1 (ix2 p' k) * x0 (ix2 k q) := by
  unfold hxFirst runFirst; dsimp only; sl_unfold_words
  -- the newest store is the block's rows, left half
  refine (View.read_writes_cons_unit_of_mem arg5.view _ _ _ _ (ix2 ⟨512 * t.val + p'.val, hp⟩ ⟨q.val, by omega⟩) (ix2 p' q)
    (off3_eq t) (both rfl (Nat.zero_add _).symm)).trans ?_
  exact newRows_apply arg1 harg1 arg2 harg2 arg4 arg5 x0 a1 p' q ..

/-- The right half of every scratch row: the features. -/
theorem hxFirst_right (p : Fin 4096) (q : Fin 64) :
    hxFirst c t arg1 harg1 arg2 harg2 arg3 harg3 arg4 harg4 arg5 harg5 x0 a1 y aS hS hc (ix2 p ⟨64 + q.val, by omega⟩)
      = x0 (ix2 p q) := by
  unfold hxFirst runFirst; dsimp only; sl_unfold_words
  -- the newest store covers left columns only; the one before it is the right-half fill
  refine (View.read_writes_cons_unit_of_not_mem arg5.view _ _ _ _ (ix2 p ⟨64 + q.val, by omega⟩) (off3_eq t) 1
    (Or.inr (show 0 + 64 ≤ 64 + q.val by omega))).trans ?_
  refine (View.read_writes_cons_unit_of_mem arg5.view _ _ _ _ (ix2 p ⟨64 + q.val, by omega⟩) (ix2 p q) rfl
    (both (Nat.zero_add _).symm rfl)).trans ?_
  exact stagedX_apply arg1 harg1 x0 _ _

/-- A scratch row outside the block, left half: zero. -/
theorem hxFirst_left_out (p : Fin 4096) (q : Fin 64) (hp : p.val < 512 * t.val ∨ 512 * t.val + 512 ≤ p.val) :
    hxFirst c t arg1 harg1 arg2 harg2 arg3 harg3 arg4 harg4 arg5 harg5 x0 a1 y aS hS hc (ix2 p ⟨q.val, by omega⟩) = 0 := by
  unfold hxFirst runFirst; dsimp only; sl_unfold_words
  -- the row misses the newest store, the column misses the right-half fill, the zero fill covers the entry
  refine (View.read_writes_cons_unit_of_not_mem arg5.view _ _ _ _ (ix2 p ⟨q.val, by omega⟩) (off3_eq t) 0 ?_).trans ?_
  · exact hp
  refine (View.read_writes_cons_unit_of_not_mem arg5.view _ _ _ _ (ix2 p ⟨q.val, by omega⟩) rfl 1 (Or.inl q.isLt)).trans ?_
  refine (View.read_writes_cons_unit_of_mem arg5.view _ _ _ _ (ix2 p ⟨q.val, by omega⟩) (ix2 p q) rfl
    (both (Nat.zero_add _).symm (Nat.zero_add _).symm)).trans ?_
  exact pay2_apply _

/-- An output row in the block: the product against the zero left half contributes nothing, so only the staged row's
    columns of this block against the block's new scratch rows remain. -/
theorem outFirst_in (p' : Fin 512) (q : Fin 64) (hp : 512 * t.val + p'.val < 4096) :
    outFirst c t arg1 harg1 arg2 harg2 arg3 harg3 arg4 harg4 arg5 harg5 x0 a1 y aS hS hc (ix2 ⟨512 * t.val + p'.val, hp⟩ q)
      = ∑ k' : Fin 512, a1 (ix2 p' ⟨512 * t.val + k'.val, by have := point_lt t; omega⟩)
            * ∑ k : Fin 4096, a1 (ix2 k' k) * x0 (ix2 k q) := by
  have ht := point_lt t
  unfold outFirst runFirst; dsimp only; sl_unfold_words
  -- the newest store is the whole output: what it held after the block's rows were stored, plus the column-block product
  refine (View.read_writes_cons_unit_of_mem arg3.view _ _ _ _ (ix2 ⟨512 * t.val + p'.val, hp⟩ q)
    (ix2 ⟨512 * t.val + p'.val, hp⟩ q) rfl (both (Nat.zero_add _).symm (Nat.zero_add _).symm)).trans ?_
  refine (pay1_apply _ _ _ ⟨512 * t.val + p'.val, hp⟩ q).trans ?_
  refine (congrArg₂ (· + ·) ?_ (Finset.sum_congr rfl fun k' _ => congrArg₂ (· * ·) ?_ ?_)).trans (zero_add _)
  · -- the output row read back after the block's rows were stored: the product against the zero left half
    refine (pay8_apply _ _).trans ?_
    refine (readAt_unit_at arg3.view _ _ (ix2 ⟨512 * t.val + p'.val, hp⟩ q) (ix2 ⟨512 * t.val + p'.val, hp⟩ q) rfl
      (both (Nat.zero_add _).symm (Nat.zero_add _).symm)).trans ?_
    refine (View.read_writes_cons_unit_of_mem arg3.view _ _ _ _ (ix2 ⟨512 * t.val + p'.val, hp⟩ q) (ix2 p' q)
      (off2_eq t) (both rfl (Nat.zero_add _).symm)).trans ?_
    exact zeroRows_apply arg1 harg1 arg2 harg2 arg4 arg5 x0 a1 p' q ..
  · -- the cached matrix's column block, at a row of this block: the staged row
    refine (readAt_unit_at arg4.view _ _ (ix2 ⟨512 * t.val + p'.val, hp⟩ k')
      (ix2 ⟨512 * t.val + p'.val, hp⟩ ⟨512 * t.val + k'.val, by omega⟩) (off4_eq t)
      (both (Nat.zero_add _).symm rfl)).trans ?_
    refine (View.read_writes_cons_unit_of_mem arg4.view _ _ _ _
      (ix2 ⟨512 * t.val + p'.val, hp⟩ ⟨512 * t.val + k'.val, by omega⟩) (ix2 p' ⟨512 * t.val + k'.val, by omega⟩)
      (off1_eq t) (both rfl (Nat.zero_add _).symm)).trans ?_
    exact stagedA_apply arg2 harg2 a1 _ _
  · -- the block's new scratch rows read back
    refine (readAt_unit_at arg5.view _ _ (ix2 k' q) (ix2 ⟨512 * t.val + k'.val, by omega⟩ ⟨q.val, by omega⟩) (off3_eq t)
      (both rfl (Nat.zero_add _).symm)).trans ?_
    refine (View.read_writes_cons_unit_of_mem arg5.view _ _ _ _ (ix2 ⟨512 * t.val + k'.val, by omega⟩ ⟨q.val, by omega⟩)
      (ix2 k' q) (off3_eq t) (both rfl (Nat.zero_add _).symm)).trans ?_
    exact newRows_apply arg1 harg1 arg2 harg2 arg4 arg5 x0 a1 k' q ..

end Cert.KernelIdeal.Hand

end
-- ==== Proof.Spec.lean ====
/-
  The function both programs compute, over the extended reals: two propagation steps through a dense 4096 × 4096
  matrix `A` applied to a 4096 × 64 feature array `x`,

      G x A = A · (A · x),    (A · h)[p, q] = Σ_k A[p, k] · h[k, q].

  Indices are built from coordinates (`ix2 p q`), so that each side can be compared with it entry by entry.
-/
import Idealize.ShloMosaic.Lib.ValueIdx
import Idealize.ShloMosaic.PureOps.Ideal

noncomputable section

open scoped BigOperators

namespace SGConv

open Idealize.ShloMosaic Idealize.ShloMosaic.ValueIdx

/-- A 4096 × 64 array of extended reals. -/
abbrev Feat : Type := (⟨2, ![4096, 64]⟩ : Shape).Idx → EReal
/-- A 4096 × 4096 array of extended reals. -/
abbrev Adj : Type := (⟨2, ![4096, 4096]⟩ : Shape).Idx → EReal

/-- One propagation step at entry (p, q): row `p` of `A` against column `q` of `h`. -/
def hop (A : Adj) (h : Feat) (p : Fin 4096) (q : Fin 64) : EReal :=
  ∑ k : Fin 4096, A (ix2 p k) * h (ix2 k q)

/-- One propagation step as an array. -/
def hopV (A : Adj) (h : Feat) : Feat := fun i => hop A h (i 0) (i 1)

/-- Two propagation steps. -/
def G (x : Feat) (A : Adj) : Feat := hopV A (hopV A x)

theorem hopV_ix2 (A : Adj) (h : Feat) (p : Fin 4096) (q : Fin 64) : hopV A h (ix2 p q) = hop A h p q := rfl

theorem G_ix2 (x : Feat) (A : Adj) (p : Fin 4096) (q : Fin 64) :
    G x A (ix2 p q) = ∑ k : Fin 4096, A (ix2 p k) * hop A x k q := rfl

end SGConv

end
-- ==== Proof.BlockSums.lean ====
/-
  Sums over 4096 positions taken in eight consecutive blocks of 512.

  `partialSum g t` adds the terms of `g` at the positions below `512 · t` (every other position contributes the
  neutral element). Adding block `t` — positions `512 · t + x` for `x < 512` — gives `partialSum g (t + 1)`; after the
  eighth block every position has been added. Addition of extended reals is commutative and associative, which is all
  that is used: no term is ever cancelled or distributed over.
-/
import Mathlib.Algebra.BigOperators.Fin
import Mathlib.Algebra.BigOperators.Intervals
import Mathlib.Data.EReal.Basic

open scoped BigOperators

namespace SGConv

/-- The terms of `g` at the positions below `512 · t`, added up. -/
noncomputable def partialSum (g : Fin 4096 → EReal) (t : ℕ) : EReal :=
  ∑ k : Fin 4096, if k.val < 512 * t then g k else 0

/-- Nothing has been added before the first block. -/
theorem partialSum_zero (g : Fin 4096 → EReal) : partialSum g 0 = 0 := by
  unfold partialSum
  -- no position lies below `512 · 0 = 0`, so every term is the neutral element
  refine Finset.sum_eq_zero fun k _ => ?_
  rw [if_neg (by omega)]

/-- A position lies below `512 · (t + 1)` exactly when it lies below `512 · t` or inside block `t`; the two cases
exclude each other, so the switched term splits into a sum of two switched terms, one of which is neutral. -/
private theorem ite_split (g : Fin 4096 → EReal) (t : ℕ) (k : Fin 4096) :
    (if k.val < 512 * (t + 1) then g k else 0)
      = (if k.val < 512 * t then g k else 0)
        + (if 512 * t ≤ k.val ∧ k.val < 512 * t + 512 then g k else 0) := by
  by_cases h1 : k.val < 512 * t
  · rw [if_pos h1, if_pos (by omega), if_neg (by omega), add_zero]
  · by_cases h2 : k.val < 512 * t + 512
    · rw [if_neg h1, if_pos (by omega), if_pos ⟨by omega, h2⟩, zero_add]
    · rw [if_neg h1, if_neg (by omega), if_neg (by omega), add_zero]

/-- The terms switched on inside block `t` are the terms at `512 · t + x`, `x < 512`: shifting by `512 · t` is a
bijection between the 512 offsets and the positions of the block. -/
private theorem block_sum (g : Fin 4096 → EReal) (t : ℕ) (ht : t < 8) :
    (∑ k : Fin 4096, if 512 * t ≤ k.val ∧ k.val < 512 * t + 512 then g k else 0)
      = ∑ x : Fin 512, g ⟨512 * t + x.val, by omega⟩ := by
  rw [← Finset.sum_filter]
  symm
  refine Finset.sum_bij'
    (fun (x : Fin 512) _ => (⟨512 * t + x.val, by omega⟩ : Fin 4096))
    (fun (k : Fin 4096) hk => (⟨k.val - 512 * t, by
      have := (Finset.mem_filter.mp hk).2
      omega⟩ : Fin 512))
    ?_ ?_ ?_ ?_ ?_
  · intro x _
    refine Finset.mem_filter.mpr ⟨Finset.mem_univ _, ?_⟩
    have := x.isLt
    constructor <;> simp only <;> omega
  · intro k _
    exact Finset.mem_univ _
  · intro x _
    apply Fin.ext
    simp only
    omega
  · intro k hk
    have := (Finset.mem_filter.mp hk).2
    apply Fin.ext
    simp only
    omega
  · intro x _
    rfl

/-- Block `t` on top of the blocks before it. -/
theorem partialSum_succ (g : Fin 4096 → EReal) (t : ℕ) (ht : t < 8) :
    partialSum g (t + 1) = partialSum g t + ∑ x : Fin 512, g ⟨512 * t + x.val, by omega⟩ := by
  unfold partialSum
  rw [Finset.sum_congr rfl (fun k _ => ite_split g t k), Finset.sum_add_distrib, block_sum g t ht]

/-- After the eighth block the whole sum. -/
theorem partialSum_all (g : Fin 4096 → EReal) : partialSum g 8 = ∑ k : Fin 4096, g k := by
  unfold partialSum
  -- every position lies below `512 · 8 = 4096`
  refine Finset.sum_congr rfl fun k _ => ?_
  have := k.isLt
  rw [if_pos (by omega)]

/-- A product with a factor that is switched off above a position is the product switched off there. -/
theorem mul_ite_zero (a b : EReal) (P : Prop) [Decidable P] : a * (if P then b else 0) = if P then a * b else 0 := by
  by_cases h : P
  · rw [if_pos h, if_pos h]
  · rw [if_neg h, if_neg h, mul_zero]

end SGConv
-- ==== Proof.Invariants.lean ====
/-
  The sweep's invariants and the two steps that carry them, as statements about plain arrays of extended reals.

  Write `x` for the features and `A` for the matrix, `h1 = A · x` for the first hop, and, for an output entry (p, q),
  `term2 p q k = A[p, k] · h1[k, q]` for the terms of the second hop's sum. After `b` of the eight points:

    • the cached matrix agrees with `A` on its first `512 · b` rows (the rows below are whatever the cache held);
    • the 128-column scratch holds `x` in its right half and, in its left half, `h1` on the first `512 · b` rows and zero
      below;
    • the output block holds, on its first `512 · b` rows, the sum of the terms at the positions `k < 512 · b`
      (the rows below are whatever the buffer held).

  The first point establishes this for `b = 1` from nothing; a later point carries it from `b` to `b + 1`: its product of
  the staged rows against the whole scratch gives, in its left columns, the terms below `512 · b` (the zero rows of the
  scratch contribute nothing) and, in its right columns, the block's rows of `h1`; the product of the cached matrix's
  column block against those new rows then adds block `b`'s terms to every row already started. After the eighth point
  every row holds the whole sum, `A · (A · x)`. Only commutativity and associativity of the extended reals' addition and
  `a · 0 = 0` are used. Each step takes what the point leaves in the three buffers as HYPOTHESES, entry by entry, in
  the form the reading of the body's stores gives them.
-/
import proofs.«120233_g65807488909795_cont_9to1_m_465_11_alg».proof.Proof.Spec
import proofs.«120233_g65807488909795_cont_9to1_m_465_11_alg».proof.Proof.BlockSums

noncomputable section

open scoped BigOperators

namespace SGConv

open Idealize.ShloMosaic Idealize.ShloMosaic.ValueIdx

/-- A 4096 × 128 array: the scratch holding first-hop rows beside the features. -/
abbrev Wide : Type := (⟨2, ![4096, 128]⟩ : Shape).Idx → EReal
/-- A 512 × 4096 array: one staged row block of the matrix. -/
abbrev RowBlock : Type := (⟨2, ![512, 4096]⟩ : Shape).Idx → EReal

variable (x : Feat) (A : Adj)

/-- The terms of the second hop's sum at output entry (p, q). -/
def term2 (p : Fin 4096) (q : Fin 64) : Fin 4096 → EReal := fun k => A (ix2 p k) * hopV A x (ix2 k q)

/-- The cached matrix after `b` points. -/
def AdjInv (b : ℕ) (a : Adj) : Prop :=
  ∀ (p k : Fin 4096), p.val < 512 * b → a (ix2 p k) = A (ix2 p k)
/-- The 128-column scratch after `b` points. -/
def HxInv (b : ℕ) (h : Wide) : Prop :=
  ∀ (p : Fin 4096) (q : Fin 64),
    h (ix2 p ⟨64 + q.val, by omega⟩) = x (ix2 p q)
    ∧ h (ix2 p ⟨q.val, by omega⟩) = if p.val < 512 * b then hopV A x (ix2 p q) else 0
/-- The output block after `b` points. -/
def OutInv (b : ℕ) (o : Feat) : Prop :=
  ∀ (p : Fin 4096) (q : Fin 64), p.val < 512 * b → o (ix2 p q) = partialSum (term2 x A p q) b

/-- A row index inside block `t` is `512 · t` plus an offset below 512. -/
private theorem in_block (t : ℕ) (p : Fin 4096) (h1 : 512 * t ≤ p.val) (h2 : p.val < 512 * t + 512) :
    ∃ (p' : Fin 512) (hp : 512 * t + p'.val < 4096), p = ⟨512 * t + p'.val, hp⟩ :=
  ⟨⟨p.val - 512 * t, by omega⟩, by have := p.isLt; simp only; omega, Fin.ext (by simp only; omega)⟩

/-- A staged row of block `t` against a column that carries column `q` of the features is the first hop at that
    row: the staged row is row `512 · t + p'` of the matrix, entry by entry. -/
private theorem staged_hop (t : ℕ) (a1 : RowBlock) (f : Fin 4096 → EReal) (q : Fin 64)
    (ha1 : ∀ (p' : Fin 512) (k : Fin 4096) (hp : 512 * t + p'.val < 4096), a1 (ix2 p' k) = A (ix2 ⟨512 * t + p'.val, hp⟩ k))
    (hf : ∀ k : Fin 4096, f k = x (ix2 k q))
    (p' : Fin 512) (hp : 512 * t + p'.val < 4096) :
    (∑ k : Fin 4096, a1 (ix2 p' k) * f k) = hopV A x (ix2 ⟨512 * t + p'.val, hp⟩ q) := by
  rw [hopV_ix2]
  unfold hop
  exact Finset.sum_congr rfl fun k _ => by rw [ha1 p' k hp, hf k]

/-- After all eight points the output block is `A · (A · x)`. -/
theorem OutInv.final {o : Feat} (h : OutInv x A 8 o) : o = G x A := by
  funext i
  obtain ⟨p, q, rfl⟩ : ∃ (p : Fin 4096) (q : Fin 64), i = ix2 p q := ⟨i 0, i 1, eq_ix2 i⟩
  -- every row lies below `512 · 8`, so the entry is the whole sum of its terms
  rw [h p q (by have := p.isLt; omega), partialSum_all]
  rfl

/-- The first point (`t = 0`): from any scratch and output contents. `x0` is the staged copy of the features, `a1` the
    staged row block; `adj'`, `hx'`, `out'` are what the point leaves. -/
theorem step_first (t : ℕ) (ht : t = 0) (x0 : Feat) (a1 : RowBlock) (adj' : Adj) (hx' : Wide) (out' : Feat)
    (hx0 : ∀ (p : Fin 4096) (q : Fin 64), x0 (ix2 p q) = x (ix2 p q))
    (ha1 : ∀ (p' : Fin 512) (k : Fin 4096) (hp : 512 * t + p'.val < 4096), a1 (ix2 p' k) = A (ix2 ⟨512 * t + p'.val, hp⟩ k))
    (h_adj_in : ∀ (p' : Fin 512) (k : Fin 4096) (hp : 512 * t + p'.val < 4096),
      adj' (ix2 ⟨512 * t + p'.val, hp⟩ k) = a1 (ix2 p' k))
    (h_hx_in : ∀ (p' : Fin 512) (q : Fin 64) (hp : 512 * t + p'.val < 4096),
      hx' (ix2 ⟨512 * t + p'.val, hp⟩ ⟨q.val, by omega⟩) = ∑ k : Fin 4096, a1 (ix2 p' k) * x0 (ix2 k q))
    (h_hx_right : ∀ (p : Fin 4096) (q : Fin 64), hx' (ix2 p ⟨64 + q.val, by omega⟩) = x0 (ix2 p q))
    (h_hx_left_out : ∀ (p : Fin 4096) (q : Fin 64), (p.val < 512 * t ∨ 512 * t + 512 ≤ p.val) →
      hx' (ix2 p ⟨q.val, by omega⟩) = 0)
    (h_out_in : ∀ (p' : Fin 512) (q : Fin 64) (hp : 512 * t + p'.val < 4096),
      out' (ix2 ⟨512 * t + p'.val, hp⟩ q)
        = ∑ k' : Fin 512, a1 (ix2 p' ⟨512 * t + k'.val, by omega⟩) * ∑ k : Fin 4096, a1 (ix2 k' k) * x0 (ix2 k q)) :
    AdjInv A (t + 1) adj' ∧ HxInv x A (t + 1) hx' ∧ OutInv x A (t + 1) out' := by
  subst ht
  refine ⟨?_, ?_, ?_⟩
  · -- the cached matrix: every row below 512 is a row of block 0, written from the staged rows
    intro p k hp
    obtain ⟨p', hp', rfl⟩ := in_block 0 p (by omega) (by omega)
    rw [h_adj_in p' k hp', ha1 p' k hp']
  · -- the scratch: the right half is the staged features; the left half is the first hop on block 0 and zero below
    intro p q
    refine ⟨(h_hx_right p q).trans (hx0 p q), ?_⟩
    by_cases h2 : p.val < 512 * 0 + 512
    · obtain ⟨p', hp', rfl⟩ := in_block 0 p (by omega) h2
      rw [h_hx_in p' q hp', if_pos (by show 512 * 0 + p'.val < 512 * (0 + 1); omega)]
      exact staged_hop x A 0 a1 (fun k => x0 (ix2 k q)) q ha1 (fun k => hx0 k q) p' hp'
    · rw [h_hx_left_out p q (Or.inr (by omega)), if_neg (by omega)]
  · -- the output: block 0's terms on top of the empty sum
    intro p q hp
    obtain ⟨p', hp', rfl⟩ := in_block 0 p (by omega) (by omega)
    rw [h_out_in p' q hp', partialSum_succ _ 0 (by omega), partialSum_zero, zero_add]
    refine Finset.sum_congr rfl fun k' _ => ?_
    rw [ha1 p' _ hp',
      staged_hop x A 0 a1 (fun k => x0 (ix2 k q)) q ha1 (fun k => hx0 k q) k' (by have := k'.isLt; omega)]
    rfl

/-- A later point `t` (`0 < t < 8`): from contents `aS`, `hS`, `y` that satisfy the invariants after `t` points. -/
theorem step_later (t : ℕ) (ht : t < 8) (a1 : RowBlock) (aS : Adj) (hS : Wide) (y : Feat) (adj' : Adj) (hx' : Wide) (out' : Feat)
    (ha1 : ∀ (p' : Fin 512) (k : Fin 4096) (hp : 512 * t + p'.val < 4096), a1 (ix2 p' k) = A (ix2 ⟨512 * t + p'.val, hp⟩ k))
    (hA : AdjInv A t aS) (hH : HxInv x A t hS) (hO : OutInv x A t y)
    (h_adj_in : ∀ (p' : Fin 512) (k : Fin 4096) (hp : 512 * t + p'.val < 4096),
      adj' (ix2 ⟨512 * t + p'.val, hp⟩ k) = a1 (ix2 p' k))
    (h_adj_out : ∀ (p k : Fin 4096), (p.val < 512 * t ∨ 512 * t + 512 ≤ p.val) → adj' (ix2 p k) = aS (ix2 p k))
    (h_hx_in : ∀ (p' : Fin 512) (q : Fin 64) (hp : 512 * t + p'.val < 4096),
      hx' (ix2 ⟨512 * t + p'.val, hp⟩ ⟨q.val, by omega⟩)
        = ∑ k : Fin 4096, a1 (ix2 p' k) * hS (ix2 k ⟨64 + q.val, by omega⟩))
    (h_hx_out_row : ∀ (p : Fin 4096) (cc : Fin 128), (p.val < 512 * t ∨ 512 * t + 512 ≤ p.val) →
      hx' (ix2 p cc) = hS (ix2 p cc))
    (h_hx_right : ∀ (p : Fin 4096) (q : Fin 64), hx' (ix2 p ⟨64 + q.val, by omega⟩) = hS (ix2 p ⟨64 + q.val, by omega⟩))
    (h_out_in : ∀ (p' : Fin 512) (q : Fin 64) (hp : 512 * t + p'.val < 4096),
      out' (ix2 ⟨512 * t + p'.val, hp⟩ q)
        = (∑ k : Fin 4096, a1 (ix2 p' k) * hS (ix2 k ⟨q.val, by omega⟩))
          + ∑ k' : Fin 512, a1 (ix2 p' ⟨512 * t + k'.val, by omega⟩)
              * ∑ k : Fin 4096, a1 (ix2 k' k) * hS (ix2 k ⟨64 + q.val, by omega⟩))
    (h_out_out : ∀ (p : Fin 4096) (q : Fin 64), (p.val < 512 * t ∨ 512 * t + 512 ≤ p.val) →
      out' (ix2 p q)
        = y (ix2 p q)
          + ∑ k' : Fin 512, aS (ix2 p ⟨512 * t + k'.val, by omega⟩)
              * ∑ k : Fin 4096, a1 (ix2 k' k) * hS (ix2 k ⟨64 + q.val, by omega⟩)) :
    AdjInv A (t + 1) adj' ∧ HxInv x A (t + 1) hx' ∧ OutInv x A (t + 1) out' := by
  -- a staged row against the right half of the scratch is the first hop at that row of block t
  have hblock : ∀ (q : Fin 64) (k' : Fin 512) (hk : 512 * t + k'.val < 4096),
      (∑ k : Fin 4096, a1 (ix2 k' k) * hS (ix2 k ⟨64 + q.val, by omega⟩)) = hopV A x (ix2 ⟨512 * t + k'.val, hk⟩ q) :=
    fun q k' hk => staged_hop x A t a1 (fun k => hS (ix2 k ⟨64 + q.val, by omega⟩)) q ha1 (fun k => (hH k q).1) k' hk
  refine ⟨?_, ?_, ?_⟩
  · -- the cached matrix: rows before block t are kept, block t's rows are the staged rows
    intro p k hp
    by_cases h1 : p.val < 512 * t
    · rw [h_adj_out p k (Or.inl h1), hA p k h1]
    · obtain ⟨p', hp', rfl⟩ := in_block t p (by omega) (by omega)
      rw [h_adj_in p' k hp', ha1 p' k hp']
  · -- the scratch
    intro p q
    refine ⟨(h_hx_right p q).trans (hH p q).1, ?_⟩
    by_cases h1 : p.val < 512 * t
    · rw [h_hx_out_row p ⟨q.val, by omega⟩ (Or.inl h1), (hH p q).2, if_pos h1, if_pos (by omega)]
    · by_cases h2 : p.val < 512 * t + 512
      · obtain ⟨p', hp', rfl⟩ := in_block t p (by omega) h2
        rw [h_hx_in p' q hp', if_pos (by show 512 * t + p'.val < 512 * (t + 1); omega)]
        exact hblock q p' hp'
      · rw [h_hx_out_row p ⟨q.val, by omega⟩ (Or.inr (by omega)), (hH p q).2, if_neg h1, if_neg (by omega)]
  · -- the output: block t's terms on top of the terms below 512 · t
    intro p q hp
    rw [partialSum_succ _ t ht]
    by_cases h1 : p.val < 512 * t
    · -- a row already started: its old contents plus the cached column block against the new rows
      rw [h_out_out p q (Or.inl h1), hO p q h1]
      refine congrArg (partialSum (term2 x A p q) t + ·) ?_
      refine Finset.sum_congr rfl fun k' _ => ?_
      rw [hA p _ h1, hblock q k' (by have := k'.isLt; omega)]
      rfl
    · -- a row of block t: the zero rows of the scratch leave exactly the terms below 512 · t in the first sum
      obtain ⟨p', hp', rfl⟩ := in_block t p (by omega) (by omega)
      rw [h_out_in p' q hp']
      refine congrArg₂ (· + ·) ?_ ?_
      · unfold partialSum
        refine Finset.sum_congr rfl fun k _ => ?_
        rw [ha1 p' k hp', (hH k q).2, mul_ite_zero]
        rfl
      · refine Finset.sum_congr rfl fun k' _ => ?_
        rw [ha1 p' _ hp', hblock q k' (by have := k'.isLt; omega)]
        rfl

end SGConv

end
-- ==== Proof.Track.lean ====
/-
  The value of the sweep at the ideal values, through the pipeline.

  The proof data are relational. An input window's buffer is left as found, so at every point the body finds the
  window's block: the whole (converted) feature array for window 0, rows `512·t …` of the matrix for window 1. Of the
  output window the relation says only what the sweep's invariant says after the point: its rows of the blocks done so
  far hold the partial sums of the second hop (the other rows are unconstrained: at the first point they are whatever
  the buffer held, and later they hold sums over whatever the cache held, until their own point overwrites them). The
  two scratch arrays ride in the invariant between points, at SOME contents that satisfy the sweep's invariant. The
  output block is the whole array and is written back once, after the last point, when every row is done.
-/
import proofs.«120233_g65807488909795_cont_9to1_m_465_11_alg».proof.Proof.PointValueLater
import proofs.«120233_g65807488909795_cont_9to1_m_465_11_alg».proof.Proof.PointValueFirst
import proofs.«120233_g65807488909795_cont_9to1_m_465_11_alg».proof.Proof.FrameRun
import proofs.«120233_g65807488909795_cont_9to1_m_465_11_alg».proof.Proof.Invariants
import Idealize.ShloMosaic.Lib.StableHlo.Run
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The arguments and the windows' blocks -/

/-- The features as launched. -/
abbrev xin (c : Dev nD) : SGConv.Feat := m ((c.tc : Thread nD τ).loc main_arg0)
/-- The matrix as launched. -/
abbrev Ain (c : Dev nD) : SGConv.Adj := m ((c.tc : Thread nD τ).loc main_arg1)

/-- Where the windows' blocks lie, decided over the grid: windows 0 and 2 are the whole of their arrays at every point,
    window 1 is row block `t`. -/
theorem window_index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The array window 0 stages is the features with their format changed, which at the ideal values changes nothing. -/
theorem staged_features (c : Dev nD) :
    @Eq (S4096x64.Idx → Elt Ideal .bf16) (V m c main_call0_v0)
      (truncf (F := Ideal) .bf16 (m ((c.tc : Thread nD τ).loc main_arg0) : FVec Ideal S4096x64 .f32) bitsLt_bf16_f32) := by
  dsimp only [Gen.V, Gen.hostOps0]; after_results; rfl

/-- Window 0's block at every point is the whole feature array (its format changed on the way in, which at the ideal
    values changes nothing). -/
theorem blk0_eq (c : Dev nD) (t : Fin cfg0.N) (p : Fin 4096) (q : Fin 64) :
    (iblk m c 0 t : Vec Ideal S4096x64 .bf16) (ix2 p q) = xin m c (ix2 p q) := by
  obtain ⟨e0, e1, -, -, -, -⟩ := window_index_facts t
  show V m c main_call0_v0 (((cfg0.win 0).blk t).view.emb (ix2 p q)) = _
  rw [staged_features]
  show (m ((c.tc : Thread nD τ).loc main_arg0)) (((cfg0.win 0).blk t).view.emb (ix2 p q)) = _
  refine congrArg (m ((c.tc : Thread nD τ).loc main_arg0)) ?_
  funext a; apply Fin.ext
  match a with
  | ⟨0, _⟩ => show win0_0.index t (0 : Fin 2) * 4096 + 1 * p.val = p.val; omega
  | ⟨1, _⟩ => show win0_0.index t (1 : Fin 2) * 64 + 1 * q.val = q.val; omega

/-- Window 1's block at point `t` is rows `512·t …` of the matrix. -/
theorem blk1_eq (c : Dev nD) (t : Fin cfg0.N) (p' : Fin 512) (k : Fin 4096) (hp : 512 * t.val + p'.val < 4096) :
    (iblk m c 1 t : Vec Ideal S512x4096 .f32) (ix2 p' k) = Ain m c (ix2 ⟨512 * t.val + p'.val, hp⟩ k) := by
  obtain ⟨-, -, e0, e1, -, -⟩ := window_index_facts t
  show V m c main_arg1 (((cfg0.win 1).blk t).view.emb (ix2 p' k)) = _
  rw [V_main_arg1]
  refine congrArg (m ((c.tc : Thread nD τ).loc main_arg1)) ?_
  funext a; apply Fin.ext
  match a with
  | ⟨0, _⟩ => show win0_1.index t (0 : Fin 2) * 512 + 1 * p'.val = 512 * t.val + p'.val; omega
  | ⟨1, _⟩ => show win0_1.index t (1 : Fin 2) * 4096 + 1 * k.val = k.val; omega

/-! ## The proof data -/

/-- The invariant before point `b`: before the first point the scratch holds anything; afterwards some contents that
    satisfy the sweep's invariant after `b` points. The generator register is at some state throughout. -/
def PhiT (c : Dev nD) : ℕ → sProp 𝕄
  | 0 => Pipeline.ΦA spec0 c
  | b + 1 => iprop((∃ (a : Vec Ideal S4096x4096 .bf16) (h : Vec Ideal S4096x128 .bf16),
        ⌜SGConv.AdjInv (Ain m c) (b + 1) a ∧ SGConv.HxInv (xin m c) (Ain m c) (b + 1) h⌝
          ∗ owns (c : Thread nD τ) scA fullShare a ∗ owns (c : Thread nD τ) scH fullShare h)
      ∗ (∃ r, prngReg c r))

theorem PhiT_zero (c : Dev nD) : PhiT m c 0 = Pipeline.ΦA spec0 c := rfl
theorem PhiT_succ (c : Dev nD) (b : ℕ) :
    PhiT m c (b + 1) = iprop((∃ (a : Vec Ideal S4096x4096 .bf16) (h : Vec Ideal S4096x128 .bf16),
        ⌜SGConv.AdjInv (Ain m c) (b + 1) a ∧ SGConv.HxInv (xin m c) (Ain m c) (b + 1) h⌝
          ∗ owns (c : Thread nD τ) scA fullShare a ∗ owns (c : Thread nD τ) scH fullShare h)
      ∗ (∃ r, prngReg c r)) := rfl

/-- The relational proof data: inputs left as found, the output constrained by the sweep's invariant, the scratch in
    the invariant between points. -/
def trackDat (c : Dev nD) : RDat τ (Elt Ideal) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun _ X => SGConv.OutInv (xin m c) (Ain m c) (t.val + 1) X
  Φ t := PhiT m c t.val
  q _ := fullShare
  owed _ := 0

theorem trackDat_A (c : Dev nD) (w : Fin cfg0.W) : (trackDat m c).A w = V m c (Pipeline.arrRef spec0 w) := by
  dsimp only [trackDat]

/-- What the body finds in window 0: its block. -/
theorem finds0 (c : Dev nD) (t : Fin cfg0.N) (Y : Vec Ideal S4096x64 .bf16) (h : (trackDat m c).Finds 0 t Y) :
    Y = iblk m c 0 t := by
  obtain ⟨d, hd⟩ := Pipeline.RDat.finds_in_eq_fetched (trackDat m c) 0 rfl (fun _ _ _ => rfl) (fun _ _ _ h => h) t Y h
  rw [hd]; unfold Pipeline.RDat.fetched Pipeline.RDat.blockOf iblk; rfl

/-- What the body finds in window 1: its block. -/
theorem finds1 (c : Dev nD) (t : Fin cfg0.N) (Y : Vec Ideal S512x4096 .f32) (h : (trackDat m c).Finds 1 t Y) :
    Y = iblk m c 1 t := by
  obtain ⟨d, hd⟩ := Pipeline.RDat.finds_in_eq_fetched (trackDat m c) 1 rfl (fun _ _ _ => rfl) (fun _ _ _ h => h) t Y h
  rw [hd]; unfold Pipeline.RDat.fetched Pipeline.RDat.blockOf iblk; rfl

/-- What the body finds in the output window after the first point: what the point before left, which the relation
    constrains (the block is not written back in between). -/
theorem finds2 (c : Dev nD) (t : Fin cfg0.N) (ht : t.val ≠ 0) (Y : Vec Ideal S4096x64 .f32) (h : (trackDat m c).Finds 2 t Y) :
    SGConv.OutInv (xin m c) (Ain m c) t.val Y := by
  have hN := point_lt t
  rw [(trackDat m c).finds_of_pos ((cfg0.win 2).fetch_out rfl t) ht] at h
  rcases h with hfl | ⟨Y', -, hR⟩
  · have := (flush0_2 ⟨t.val - 1, Nat.lt_of_le_of_lt (Nat.sub_le _ _) t.isLt⟩).mp hfl
    dsimp only at this
    omega
  · have e : t.val - 1 + 1 = t.val := by omega
    have hR' : SGConv.OutInv (xin m c) (Ain m c) (t.val - 1 + 1) Y := hR
    rw [e] at hR'
    exact hR'

/-! ## The body obligation -/

set_option maxHeartbeats 1600000 in
/-- The first point. -/
theorem track_body_first (c : Dev nD) (t : Fin cfg0.N) (hc : isFirst (grid0.coords t)) (Y2 : Vec Ideal S4096x64 .f32) :
    iprop(PhiT m c t.val ∗ (trackDat m c).owesAt () t.castSucc
        ∗ owns (c : Thread nD τ) (ms0 t) fullShare (iblk m c 0 t) ∗ owns (c : Thread nD τ) (ms1 t) fullShare (iblk m c 1 t)
        ∗ owns (c : Thread nD τ) (ms2 t) fullShare Y2)
      ⊢ wp frame (wpE (defs₀ (F := Ideal)) Variants.none c none) Set.univ (bodyAt0 t) (fun _ =>
          iprop(PhiT m c (t.val + 1) ∗ (trackDat m c).owesAt () t.succ
            ∗ (∃ X, ⌜X = iblk m c 0 t⌝ ∗ owns (c : Thread nD τ) (ms0 t) fullShare X)
            ∗ (∃ X, ⌜X = iblk m c 1 t⌝ ∗ owns (c : Thread nD τ) (ms1 t) fullShare X)
            ∗ (∃ X, ⌜SGConv.OutInv (xin m c) (Ain m c) (t.val + 1) X⌝ ∗ owns (c : Thread nD τ) (ms2 t) fullShare X))) := by
  have ht0 : t.val = 0 := (isFirst_iff t).mp hc
  unfold bodyAt0
  rw [show (trackDat m c).owesAt () t.succ = (trackDat m c).owesAt () t.castSucc from rfl,
    show PhiT m c t.val = Pipeline.ΦA spec0 c from by rw [ht0]; rfl, PhiT_succ, PhiA_eq]
  iintro ⟨⟨⟨⟨%dA, HA⟩, ⟨%dH, HH⟩⟩, Hg⟩, Ho, H0, H1, H2⟩
  have hstep := SGConv.step_first (xin m c) (Ain m c) t.val ht0 (iblk m c 0 t) (iblk m c 1 t)
    (adjFirst c t (ms0 t) (hs0 t) (ms1 t) (hs1 t) (ms2 t) (hs2 t) scA (Memref.isWhole_whole _) scH (Memref.isWhole_whole _) (iblk m c 0 t) (iblk m c 1 t) Y2 dA dH hc) (hxFirst c t (ms0 t) (hs0 t) (ms1 t) (hs1 t) (ms2 t) (hs2 t) scA (Memref.isWhole_whole _) scH (Memref.isWhole_whole _) (iblk m c 0 t) (iblk m c 1 t) Y2 dA dH hc) (outFirst c t (ms0 t) (hs0 t) (ms1 t) (hs1 t) (ms2 t) (hs2 t) scA (Memref.isWhole_whole _) scH (Memref.isWhole_whole _) (iblk m c 0 t) (iblk m c 1 t) Y2 dA dH hc)
    (blk0_eq m c t) (blk1_eq m c t)
    (adjFirst_in c t (ms0 t) (hs0 t) (ms1 t) (hs1 t) (ms2 t) (hs2 t) scA (Memref.isWhole_whole _) scH (Memref.isWhole_whole _) (iblk m c 0 t) (iblk m c 1 t) Y2 dA dH hc) (hxFirst_in c t (ms0 t) (hs0 t) (ms1 t) (hs1 t) (ms2 t) (hs2 t) scA (Memref.isWhole_whole _) scH (Memref.isWhole_whole _) (iblk m c 0 t) (iblk m c 1 t) Y2 dA dH hc) (hxFirst_right c t (ms0 t) (hs0 t) (ms1 t) (hs1 t) (ms2 t) (hs2 t) scA (Memref.isWhole_whole _) scH (Memref.isWhole_whole _) (iblk m c 0 t) (iblk m c 1 t) Y2 dA dH hc) (hxFirst_left_out c t (ms0 t) (hs0 t) (ms1 t) (hs1 t) (ms2 t) (hs2 t) scA (Memref.isWhole_whole _) scH (Memref.isWhole_whole _) (iblk m c 0 t) (iblk m c 1 t) Y2 dA dH hc) (outFirst_in c t (ms0 t) (hs0 t) (ms1 t) (hs1 t) (ms2 t) (hs2 t) scA (Memref.isWhole_whole _) scH (Memref.isWhole_whole _) (iblk m c 0 t) (iblk m c 1 t) Y2 dA dH hc)
  iapply ((runFirst c (grid0.coords t) (ms0 t) (hs0 t) (ms1 t) (hs1 t) (ms2 t) (hs2 t) scA (Memref.isWhole_whole _) scH (Memref.isWhole_whole _) hc (iblk m c 0 t) (iblk m c 1 t) Y2 dA dH).2.2.2 Set.univ _)
  isplitl [H0]; · iexact H0
  isplitl [H1]; · iexact H1
  isplitl [H2]; · iexact H2
  isplitl [HA]; · iexact HA
  isplitl [HH]; · iexact HH
  iintro ⟨H0, H1, H3, H4, H5⟩
  isplitl [H4 H5 Hg]
  · isplitl [H4 H5]
    · iexists (adjFirst c t (ms0 t) (hs0 t) (ms1 t) (hs1 t) (ms2 t) (hs2 t) scA (Memref.isWhole_whole _) scH (Memref.isWhole_whole _) (iblk m c 0 t) (iblk m c 1 t) Y2 dA dH hc), (hxFirst c t (ms0 t) (hs0 t) (ms1 t) (hs1 t) (ms2 t) (hs2 t) scA (Memref.isWhole_whole _) scH (Memref.isWhole_whole _) (iblk m c 0 t) (iblk m c 1 t) Y2 dA dH hc)
      isplitr
      · ipureintro; exact ⟨hstep.1, hstep.2.1⟩
      isplitl [H4]
      · iapply (owns_of_pointsTo c scA _); iexact H4
      · iapply (owns_of_pointsTo c scH _); iexact H5
    iexact Hg
  isplitl [Ho]; · iexact Ho
  isplitl [H0]
  · iexists _; isplitr; · ipureintro; rfl
    iexact H0
  isplitl [H1]
  · iexists _; isplitr; · ipureintro; rfl
    iexact H1
  iexists (outFirst c t (ms0 t) (hs0 t) (ms1 t) (hs1 t) (ms2 t) (hs2 t) scA (Memref.isWhole_whole _) scH (Memref.isWhole_whole _) (iblk m c 0 t) (iblk m c 1 t) Y2 dA dH hc)
  isplitr
  · ipureintro; exact hstep.2.2
  iapply (owns_of_pointsTo c (ms2 t) _); iexact H3

set_option maxHeartbeats 1600000 in
/-- A later point. -/
theorem track_body_later (c : Dev nD) (t : Fin cfg0.N) (hc : ¬ isFirst (grid0.coords t)) (Y2 : Vec Ideal S4096x64 .f32)
    (hY2 : SGConv.OutInv (xin m c) (Ain m c) t.val Y2) :
    iprop(PhiT m c t.val ∗ (trackDat m c).owesAt () t.castSucc
        ∗ owns (c : Thread nD τ) (ms0 t) fullShare (iblk m c 0 t) ∗ owns (c : Thread nD τ) (ms1 t) fullShare (iblk m c 1 t)
        ∗ owns (c : Thread nD τ) (ms2 t) fullShare Y2)
      ⊢ wp frame (wpE (defs₀ (F := Ideal)) Variants.none c none) Set.univ (bodyAt0 t) (fun _ =>
          iprop(PhiT m c (t.val + 1) ∗ (trackDat m c).owesAt () t.succ
            ∗ (∃ X, ⌜X = iblk m c 0 t⌝ ∗ owns (c : Thread nD τ) (ms0 t) fullShare X)
            ∗ (∃ X, ⌜X = iblk m c 1 t⌝ ∗ owns (c : Thread nD τ) (ms1 t) fullShare X)
            ∗ (∃ X, ⌜SGConv.OutInv (xin m c) (Ain m c) (t.val + 1) X⌝ ∗ owns (c : Thread nD τ) (ms2 t) fullShare X))) := by
  have ht0 : t.val ≠ 0 := fun h => hc ((isFirst_iff t).mpr h)
  obtain ⟨b, hb⟩ : ∃ b, t.val = b + 1 := ⟨t.val - 1, by omega⟩
  unfold bodyAt0
  rw [show (trackDat m c).owesAt () t.succ = (trackDat m c).owesAt () t.castSucc from rfl,
    show PhiT m c t.val = PhiT m c (b + 1) from by rw [hb], PhiT_succ, PhiT_succ]
  iintro ⟨⟨⟨%dA, %dH, %hInv, HA, HH⟩, Hg⟩, Ho, H0, H1, H2⟩
  have hA : SGConv.AdjInv (Ain m c) t.val dA := by rw [hb]; exact hInv.1
  have hH : SGConv.HxInv (xin m c) (Ain m c) t.val dH := by rw [hb]; exact hInv.2
  have hstep := SGConv.step_later (xin m c) (Ain m c) t.val (point_lt t) (iblk m c 1 t) dA dH Y2
    (adjLater c t (ms0 t) (hs0 t) (ms1 t) (hs1 t) (ms2 t) (hs2 t) scA (Memref.isWhole_whole _) scH (Memref.isWhole_whole _) (iblk m c 0 t) (iblk m c 1 t) Y2 dA dH hc) (hxLater c t (ms0 t) (hs0 t) (ms1 t) (hs1 t) (ms2 t) (hs2 t) scA (Memref.isWhole_whole _) scH (Memref.isWhole_whole _) (iblk m c 0 t) (iblk m c 1 t) Y2 dA dH hc) (outLater c t (ms0 t) (hs0 t) (ms1 t) (hs1 t) (ms2 t) (hs2 t) scA (Memref.isWhole_whole _) scH (Memref.isWhole_whole _) (iblk m c 0 t) (iblk m c 1 t) Y2 dA dH hc)
    (blk1_eq m c t) hA hH hY2
    (adjLater_in c t (ms0 t) (hs0 t) (ms1 t) (hs1 t) (ms2 t) (hs2 t) scA (Memref.isWhole_whole _) scH (Memref.isWhole_whole _) (iblk m c 0 t) (iblk m c 1 t) Y2 dA dH hc) (adjLater_out c t (ms0 t) (hs0 t) (ms1 t) (hs1 t) (ms2 t) (hs2 t) scA (Memref.isWhole_whole _) scH (Memref.isWhole_whole _) (iblk m c 0 t) (iblk m c 1 t) Y2 dA dH hc) (hxLater_in c t (ms0 t) (hs0 t) (ms1 t) (hs1 t) (ms2 t) (hs2 t) scA (Memref.isWhole_whole _) scH (Memref.isWhole_whole _) (iblk m c 0 t) (iblk m c 1 t) Y2 dA dH hc) (hxLater_out_row c t (ms0 t) (hs0 t) (ms1 t) (hs1 t) (ms2 t) (hs2 t) scA (Memref.isWhole_whole _) scH (Memref.isWhole_whole _) (iblk m c 0 t) (iblk m c 1 t) Y2 dA dH hc) (hxLater_right c t (ms0 t) (hs0 t) (ms1 t) (hs1 t) (ms2 t) (hs2 t) scA (Memref.isWhole_whole _) scH (Memref.isWhole_whole _) (iblk m c 0 t) (iblk m c 1 t) Y2 dA dH hc)
    (outLater_in c t (ms0 t) (hs0 t) (ms1 t) (hs1 t) (ms2 t) (hs2 t) scA (Memref.isWhole_whole _) scH (Memref.isWhole_whole _) (iblk m c 0 t) (iblk m c 1 t) Y2 dA dH hc) (outLater_out c t (ms0 t) (hs0 t) (ms1 t) (hs1 t) (ms2 t) (hs2 t) scA (Memref.isWhole_whole _) scH (Memref.isWhole_whole _) (iblk m c 0 t) (iblk m c 1 t) Y2 dA dH hc)
  iapply ((runLater c (grid0.coords t) (ms0 t) (hs0 t) (ms1 t) (hs1 t) (ms2 t) (hs2 t) scA (Memref.isWhole_whole _) scH (Memref.isWhole_whole _) hc (iblk m c 0 t) (iblk m c 1 t) Y2 dA dH).2.2.2 Set.univ _)
  isplitl [H0]; · iexact H0
  isplitl [H1]; · iexact H1
  isplitl [H2]; · iexact H2
  isplitl [HA]; · iexact HA
  isplitl [HH]; · iexact HH
  iintro ⟨H0, H1, H3, H4, H5⟩
  isplitl [H4 H5 Hg]
  · isplitl [H4 H5]
    · iexists (adjLater c t (ms0 t) (hs0 t) (ms1 t) (hs1 t) (ms2 t) (hs2 t) scA (Memref.isWhole_whole _) scH (Memref.isWhole_whole _) (iblk m c 0 t) (iblk m c 1 t) Y2 dA dH hc), (hxLater c t (ms0 t) (hs0 t) (ms1 t) (hs1 t) (ms2 t) (hs2 t) scA (Memref.isWhole_whole _) scH (Memref.isWhole_whole _) (iblk m c 0 t) (iblk m c 1 t) Y2 dA dH hc)
      isplitr
      · ipureintro; exact ⟨hstep.1, hstep.2.1⟩
      isplitl [H4]
      · iapply (owns_of_pointsTo c scA _); iexact H4
      · iapply (owns_of_pointsTo c scH _); iexact H5
    iexact Hg
  isplitl [Ho]; · iexact Ho
  isplitl [H0]
  · iexists _; isplitr; · ipureintro; rfl
    iexact H0
  isplitl [H1]
  · iexists _; isplitr; · ipureintro; rfl
    iexact H1
  iexists (outLater c t (ms0 t) (hs0 t) (ms1 t) (hs1 t) (ms2 t) (hs2 t) scA (Memref.isWhole_whole _) scH (Memref.isWhole_whole _) (iblk m c 0 t) (iblk m c 1 t) Y2 dA dH hc)
  isplitr
  · ipureintro; exact hstep.2.2
  iapply (owns_of_pointsTo c (ms2 t) _); iexact H3

/-- The library's relational body obligation, at every point. -/
theorem track_obligation (c : Dev nD) :
    (trackDat m c).BodyObligation (defs₀ (F := Ideal)) Variants.none () Set.univ := fun t Y hY => by
  rw [bigSep_W0, bigSep_W0]
  have h0 := finds0 m c t (Y 0) (hY 0)
  have h1 := finds1 m c t (Y 1) (hY 1)
  by_cases hc : isFirst (grid0.coords t)
  · have hb := track_body_first m c t hc (Y 2)
    rw [← h0, ← h1] at hb
    exact hb
  · have hb := track_body_later m c t hc (Y 2) (finds2 m c t (fun h => hc ((isFirst_iff t).mpr h)) (Y 2) (hY 2))
    rw [← h0, ← h1] at hb
    exact hb

/-! ## The run -/

/-- What the launch hands the region is the invariant before the first point. -/
theorem track_in (c : Dev nD) : Pipeline.ΦA spec0 c ⊢ (trackDat m c).Φ 0 := by
  rw [show (trackDat m c).Φ 0 = PhiT m c 0 from rfl, PhiT_zero]
  try exact Idealize.SL.BI.Entails.refl _

/-- After the last point the invariant gives the scratch back at some contents. -/
theorem track_out (c : Dev nD) : (trackDat m c).Φ (Fin.last cfg0.N) ⊢ Pipeline.ΦA spec0 c := by
  rw [show (trackDat m c).Φ (Fin.last cfg0.N) = PhiT m c (7 + 1) from rfl, PhiT_succ, PhiA_eq]
  iintro ⟨⟨%a, %h, -, HA, HH⟩, Hg⟩
  isplitl [HA HH]
  · isplitl [HA]
    · iexists _; iexact HA
    · iexists _; iexact HH
  iexact Hg

set_option backward.isDefEq.respectTransparency.types false in
/-- Every weakly fair execution of @main terminates; each array then holds contents the relation admits, every other
    unscoped buffer what it held at the region's entry. -/
theorem track_run : θ_run defs (onTc (τ := τ) (main (F := Ideal))) (s₀ m ρ) (Pipeline.RDat.FramePost cfg0 (trackDat m) (V m)) :=
  Pipeline.RDat.θ_run_frame_track cfgs (0 : Fin 1) launch0 defs₀ Variants.none (trackDat m) m ρ main
    (hbody := track_obligation m) (hshare := fun c => (trackDat m c).share_full fun _ => rfl)
    (howed := fun _ _ => rfl) (V := V m) (hmain := hmain m Variants.none) (hA := trackDat_A m)
    (hin := track_in m) (hout := track_out m)

/-! ## The result array -/

/-- The one write-back, after the last point, writes the whole output array with a block every row of which is done:
    the array ends at `A · (A · x)`. -/
theorem final_out (c : Dev nD) (Gm : Buf (Elt Ideal) ((c.tc : Thread nD τ).loc main_v0))
    (h : (trackDat m c).ArrAt 2 cfg0.N Gm) : Gm = SGConv.G (xin m c) (Ain m c) := by
  have h7 : 7 < cfg0.N := by rw [show cfg0.N = 8 from N_0]; decide
  have hlast : (cfg0.win 2).flush (⟨7, h7⟩ : Fin cfg0.N) = true := (flush0_2 ⟨7, h7⟩).mpr (show 7 % 8 = 7 from rfl)
  have h' : (trackDat m c).ArrAt 2 ((⟨7, h7⟩ : Fin cfg0.N).val + 1) Gm :=
    (congrArg (fun n => (trackDat m c).ArrAt 2 n Gm) (show cfg0.N = 7 + 1 from N_0)).mp h
  rw [(trackDat m c).ArrAt_succ 2 ⟨7, h7⟩, if_pos hlast] at h'
  obtain ⟨G₀, X, -, ⟨Y, -, hX⟩, rfl⟩ := h'
  have hXG : (X : SGConv.Feat) = SGConv.G (xin m c) (Ain m c) := SGConv.OutInv.final (xin m c) (Ain m c) hX
  obtain ⟨-, -, -, -, e0, e1⟩ := window_index_facts ⟨7, h7⟩
  funext i
  obtain ⟨p, q, rfl⟩ : ∃ (p : Fin 4096) (q : Fin 64), i = ix2 p q := ⟨i 0, i 1, eq_ix2 i⟩
  have hemb : ((cfg0.win 2).blk ⟨7, h7⟩).view.emb (ix2 p q) = ix2 p q := by
    funext a; apply Fin.ext
    match a with
    | ⟨0, _⟩ => show win0_2.index ⟨7, h7⟩ (0 : Fin 2) * 4096 + 1 * p.val = p.val; omega
    | ⟨1, _⟩ => show win0_2.index ⟨7, h7⟩ (1 : Fin 2) * 64 + 1 * q.val = q.val; omega
  refine (congrArg _ hemb.symm).trans ((View.write_emb_of_mem _ _ (Finset.mem_univ (ix2 p q))).trans ?_)
  show X (ix2 p q) = _
  rw [hXG]

/-- THE VALUE RUN: the program ends with its result at `A · (A · x)` of the launched arguments, which are unchanged. -/
theorem value_run : θ_run defs (onTc (τ := τ) (main (F := Ideal))) ⟨m, fun _ => 0, ρ⟩ (fun r => ∀ c : Dev nD,
      r.2.mem ((c.tc : Thread nD τ).loc main_v0) = SGConv.G (xin m c) (Ain m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨final_out m c _ ((h c).1 2),
     ((h c).2 main_arg0 (Pipeline.mem_restRefs_of main_arg0 (by decide) (by decide))).trans (V_main_arg0 m c),
     (Pipeline.RDat.FramePost.arr_in h c 1 rfl).trans ((trackDat_A m c 1).trans (V_main_arg1 m c))⟩) (track_run m ρ)

end Cert.KernelIdeal.Hand

end
-- ==== Proof.RefBridge.lean ====
/-
  The reference's result is `G`: its two `dot_general`s, read at an entry as sums over the contraction position, are
  the two propagation steps of the specification.
-/
import proofs.«120233_g65807488909795_cont_9to1_m_465_11_alg».proof.Proof.Gen.ReferenceIdeal.Run
import proofs.«120233_g65807488909795_cont_9to1_m_465_11_alg».proof.Proof.Gen.ReferenceIdeal.Read
import proofs.«120233_g65807488909795_cont_9to1_m_465_11_alg».proof.Proof.Spec

noncomputable section

open scoped BigOperators

namespace SGConv.Ref

open Idealize.ShloMosaic Idealize.ShloMosaic.ValueIdx Cert.ReferenceIdeal Cert.ReferenceIdeal.Read

/-- The left operand of the first product is read at row `p`, contraction position `k`. -/
private theorem lidx0_ix2 (p : Fin 4096) (q : Fin 64) (k : Fin 4096) : lidx_main_v0 (ix2 p q) k = ix2 p k :=
  funext fun a => Fin.ext (by match a with | ⟨0, _⟩ => rfl | ⟨1, _⟩ => rfl)

/-- The right operand of the first product is read at contraction position `k`, column `q`. -/
private theorem ridx0_ix2 (p : Fin 4096) (q : Fin 64) (k : Fin 4096) : ridx_main_v0 (ix2 p q) k = ix2 k q :=
  funext fun a => Fin.ext (by match a with | ⟨0, _⟩ => rfl | ⟨1, _⟩ => rfl)

/-- The left operand of the second product is read at row `p`, contraction position `k`. -/
private theorem lidx1_ix2 (p : Fin 4096) (q : Fin 64) (k : Fin 4096) : lidx_main_v1 (ix2 p q) k = ix2 p k :=
  funext fun a => Fin.ext (by match a with | ⟨0, _⟩ => rfl | ⟨1, _⟩ => rfl)

/-- The right operand of the second product is read at contraction position `k`, column `q`. -/
private theorem ridx1_ix2 (p : Fin 4096) (q : Fin 64) (k : Fin 4096) : ridx_main_v1 (ix2 p q) k = ix2 k q :=
  funext fun a => Fin.ext (by match a with | ⟨0, _⟩ => rfl | ⟨1, _⟩ => rfl)

/-- The reference's first product at entry (p, q) is one propagation step there. -/
private theorem v0_ix2 (x0 : (⟨S4096x64, .f32⟩ : BufTy).Contents (Elt Ideal)) (x1 : (⟨S4096x4096, .f32⟩ : BufTy).Contents (Elt Ideal))
    (p : Fin 4096) (q : Fin 64) :
    val_main_v0 (F := Ideal) x0 x1 (ix2 p q) = SGConv.hop x1 x0 p q := by
  rw [val_main_v0_apply]
  unfold SGConv.hop
  refine Finset.sum_congr rfl fun k _ => ?_
  rw [lidx0_ix2, ridx0_ix2]

/-- The reference's second product, over its first, is `A · (A · x)` entry by entry. -/
theorem ref_eq (x0 : (⟨S4096x64, .f32⟩ : BufTy).Contents (Elt Ideal)) (x1 : (⟨S4096x4096, .f32⟩ : BufTy).Contents (Elt Ideal)) :
    val_main_v1 (F := Ideal) x0 x1 = SGConv.G x0 x1 := by
  funext i
  obtain ⟨p, q, rfl⟩ : ∃ (p : Fin 4096) (q : Fin 64), i = ix2 p q := ⟨i 0, i 1, eq_ix2 i⟩
  -- entry (p, q) of the second product is the sum over k of A[p, k] times entry (k, q) of the first product
  rw [val_main_v1_apply, SGConv.G_ix2]
  refine Finset.sum_congr rfl fun k _ => ?_
  rw [lidx1_ix2, ridx1_ix2, v0_ix2]

end SGConv.Ref

end
-- ==== Proof.lean ====
/-
  `Cert.Claim`: a one-sweep two-hop propagation kernel against `adj @ (adj @ x)`.

  The kernel streams the 4096 × 4096 matrix once, eight row blocks of 512. Beside the features it keeps the first-hop
  rows computed so far, so that one product of a row block against that 128-column array yields both the block's rows of
  the first hop `A · x` and the second hop's terms over the rows already known; a second product, of the cached matrix's
  column block against the block's new first-hop rows, adds the block's terms to every output row already started.
  Over the extended reals every change of float format is the identity and each matrix product is an exact sum, so the
  kernel's result is the reference's `A · (A · x)` by regrouping one sum of 4096 terms into eight blocks (with `a · 0 = 0`
  for the rows of the 128-column array not yet filled): commutativity and associativity of addition only, hence for every
  input, finite or not. Rows the sweep has not reached hold sums over whatever the cache held; each is overwritten by
  its own block's store before it counts.

  The frames (both printed forms of the kernel, at any float values): the body takes no branch, address or trip count
  from data. The reference's frame is its run with the result dropped. The ideal pass rewrote nothing, so `preserves`
  has no conjunct.
-/
import proofs.«120233_g65807488909795_cont_9to1_m_465_11_alg».proof.Defs
import proofs.«120233_g65807488909795_cont_9to1_m_465_11_alg».proof.Proof.Gen.Kernel
import proofs.«120233_g65807488909795_cont_9to1_m_465_11_alg».proof.Proof.Gen.KernelIdeal
import proofs.«120233_g65807488909795_cont_9to1_m_465_11_alg».proof.Proof.Gen.ReferenceIdeal
import proofs.«120233_g65807488909795_cont_9to1_m_465_11_alg».proof.Proof.Gen.Pre_finite_inputs
import proofs.«120233_g65807488909795_cont_9to1_m_465_11_alg».proof.Proof.Gen.ReferenceIdeal.Run
import proofs.«120233_g65807488909795_cont_9to1_m_465_11_alg».proof.Proof.Gen.ReferenceIdeal.Read
import proofs.«120233_g65807488909795_cont_9to1_m_465_11_alg».proof.Proof.FrameRun
import proofs.«120233_g65807488909795_cont_9to1_m_465_11_alg».proof.Proof.FrameRunWord
import proofs.«120233_g65807488909795_cont_9to1_m_465_11_alg».proof.Proof.Track
import proofs.«120233_g65807488909795_cont_9to1_m_465_11_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame_holds (F := Bits) m ρ

/-- So does the idealized kernel. -/
theorem frame_kernelIdeal : Cert.frame_KernelIdeal := fun m ρ _ => Cert.KernelIdeal.Hand.frame_holds (F := Ideal) m ρ

/-- The reference is two host products: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end at `A · (A · x)` of arguments that agree. -/
theorem algebraic : Cert.algebraic_KernelIdeal_ReferenceIdeal := by
  intro m ρ m' ρ' _ hagree
  refine ⟨fun c => SGConv.G (Cert.KernelIdeal.Hand.xin m c) (Cert.KernelIdeal.Hand.Ain m c),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v1_eq]
  exact SGConv.Ref.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
